-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : IVec S2x800000 32) (main_arg2 : FVec F S800000 .f32) (main_arg3 : FVec F S512x128 .f32) (main_arg4 : FVec F S128 .f32) (main_arg5 : FVec F S128x40 .f32) (main_arg6 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S50000x128 : Shape := ⟨2, ![50000, 128]⟩
abbrev S2000x512 : Shape := ⟨2, ![2000, 512]⟩
abbrev S2000x128 : Shape := ⟨2, ![2000, 128]⟩
abbrev S850000x128 : Shape := ⟨2, ![850000, 128]⟩
abbrev S1x128 : Shape := ⟨2, ![1, 128]⟩
abbrev S5000x128 : Shape := ⟨2, ![5000, 128]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 131
  | .vmem => 20
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x128, .f32⟩
  | 4 => ⟨S128, .f32⟩
  | 5 => ⟨S128x40, .f32⟩
  | 6 => ⟨S40, .f32⟩
  | 7 => ⟨S_, .f32⟩
  | 8 => ⟨S800000, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000, .i32⟩
  | 71 => ⟨S1x800000, .i32⟩
  | 72 => ⟨S800000, .i32⟩
  | 73 => ⟨S850000, .i32⟩
  | 74 => ⟨S1x800000, .i32⟩
  | 75 => ⟨S800000, .i32⟩
  | 76 => ⟨S850000, .i32⟩
  | 77 => ⟨S_, .f32⟩
  | 78 => ⟨S50000, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S50000x40, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x40, .f32⟩
  | 122 => ⟨S850000x1, .f32⟩
  | 123 => ⟨S850000x40, .f32⟩
  | 124 => ⟨S850000x40, .f32⟩
  | 125 => ⟨S_, .f32⟩
  | 126 => ⟨S50000x40, .f32⟩
  | 127 => ⟨S850000x1, .i32⟩
  | _ => ⟨S50000x512, .f32⟩

abbrev hbmTy0_1 (i : Nat) : BufTy := match i % 128 with
  | 0 => ⟨S50000x40, .f32⟩
  | 1 => ⟨S1x40, .f32⟩
  | 2 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_18 : Ref sig .tc := ⟨.hbm, 113, rfl⟩
abbrev main_v82 : Ref sig .tc := ⟨.hbm, 114, rfl⟩
abbrev main_v83 : Ref sig .tc := ⟨.hbm, 115, rfl⟩
abbrev main_c_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_20 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x128_S2000x128_1_0_0_1_n_n_wf : DotDims.WF S2000x512 S512x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v94) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v95) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 151
  | .vmem => 0
  | .smem => 0
  | _ => 0

abbrev hbmTy0_0 (i : Nat) : BufTy := match i % 128 with
  | 0 => ⟨S50000x512, .f32⟩
  | 1 => ⟨S2x800000, .i32⟩
  | 2 => ⟨S800000, .f32⟩
  | 3 => ⟨S512x128, .f32⟩
  | 4 => ⟨S128, .f32⟩
  | 5 => ⟨S128x40, .f32⟩
  | 6 => ⟨S40, .f32⟩
  | 7 => ⟨S_, .f32⟩
  | 8 => ⟨S800000, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000, .i32⟩
  | 75 => ⟨S1x800000, .i32⟩
  | 76 => ⟨S800000, .i32⟩
  | 77 => ⟨S850000, .i32⟩
  | 78 => ⟨S1x800000, .i32⟩
  | 79 => ⟨S800000, .i32⟩
  | 80 => ⟨S850000, .i32⟩
  | 81 => ⟨S_, .f32⟩
  | 82 => ⟨S50000, .f32⟩
  | 83 => ⟨S850000, .f32⟩
  | 84 => ⟨S_, .f32⟩
  | 85 => ⟨S50000, .f32⟩
  | 86 => ⟨S850000x1, .i32⟩
  | 87 => ⟨S50000, .f32⟩
  | 88 => ⟨S_, .f32⟩
  | 89 => ⟨S50000, .f32⟩
  | 90 => ⟨S50000, .i1⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000, .f32⟩
  | 115 => ⟨S850000, .f32⟩
  | 116 => ⟨S50000x40, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x40, .f32⟩
  | 126 => ⟨S850000x1, .f32⟩
  | 127 => ⟨S850000x40, .f32⟩
  | _ => ⟨S50000x512, .f32⟩

abbrev hbmTy0_1 (i : Nat) : BufTy := match i % 128 with
  | 0 => ⟨S850000x40, .f32⟩
  | 1 => ⟨S_, .f32⟩
  | 2 => ⟨S50000x40, .f32⟩
  | 3 => ⟨S850000x1, .i32⟩
  | 4 => ⟨S50000x40, .f32⟩
  | 5 => ⟨S1x40, .f32⟩
  | 6 => ⟨S50000x40, .f32⟩
  | 7 => ⟨S50000x40, .f32⟩
  | 8 => ⟨S_, .f32⟩
  | 9 => ⟨S50000, .f32⟩
  | 10 => ⟨S_, .f32⟩
  | 11 => ⟨S50000, .f32⟩
  | 12 => ⟨S50000, .f32⟩
  | 13 => ⟨S50000x1, .f32⟩
  | 14 => ⟨S50000x40, .f32⟩
  | 15 => ⟨S50000x40, .f32⟩
  | 16 => ⟨S50000x40, .f32⟩
  | 17 => ⟨S_, .f32⟩
  | 18 => ⟨S50000, .f32⟩
  | 19 => ⟨S50000x1, .f32⟩
  | 20 => ⟨S50000x1, .f32⟩
  | 21 => ⟨S50000x40, .f32⟩
  | 22 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_cst : Ref sig .tc := ⟨.hbm, 71, rfl⟩
abbrev main_call1_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call3_cst : Ref sig .tc := ⟨.hbm, 136, rfl⟩
abbrev main_call3_v0 : Ref sig .tc := ⟨.hbm, 137, rfl⟩
abbrev main_call3_cst_0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_v6 : Ref sig .tc := ⟨.hbm, 144, rfl⟩
abbrev main_call3_cst_1 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_v100 : Ref sig .tc := ⟨.hbm, 150, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.StageA.lean ====
/-
  The host operations before the first kernel region depend on the edge array only. They build the source and
  destination index vectors with the self-loops appended, and the symmetric normalisation of unit edge weights:
  norm = dinv[src] · w · dinv[dst] with dinv = where(deg > 0, rsqrt deg, 0) and deg the scatter-add of w over dst.
  The reference runs the very same operations, so what they leave in these three buffers are the reference's
  stages %4, %7 and %32 of the edge array. No argument array is written.
-/
import proofs.«176960_j29592324669624_1_alg».proof.Proof.Gen.KernelIdeal.Frame
import proofs.«176960_j29592324669624_1_alg».proof.Proof.RefRead
import Idealize.ShloMosaic.Lib.StableHlo.Run

set_option maxRecDepth 65536

noncomputable section

namespace Cert.KernelIdeal.Stages

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The source indices with the self-loops appended. -/
theorem W3_src (c : Dev nD) :
    W3 m ρ c (Proc.devRef .tc main_v4)
      = Cert.ReferenceIdeal.ReadP.val_main_v4 (F := F) (m ((c : Thread nD τ).loc main_arg1)) := by
  unfold W3 W2 W1
  simp only [hostOps0, hostOps0_1, hostOps0_2]
  after_results
  rfl

/-- The destination indices with the self-loops appended. -/
theorem W3_dst (c : Dev nD) :
    W3 m ρ c (Proc.devRef .tc main_v7)
      = Cert.ReferenceIdeal.ReadP.val_main_v7 (F := F) (m ((c : Thread nD τ).loc main_arg1)) := by
  unfold W3 W2 W1
  simp only [hostOps0, hostOps0_1, hostOps0_2]
  after_results
  rfl

set_option maxHeartbeats 4000000 in
/-- The normalised weights of the first layer. -/
theorem W3_norm (c : Dev nD) :
    W3 m ρ c (Proc.devRef .tc main_v32)
      = Cert.ReferenceIdeal.ReadP.val_main_v32 (F := F) (m ((c : Thread nD τ).loc main_arg1)) := by
  unfold W3 W2 W1
  simp only [hostOps0, hostOps0_1, hostOps0_2]
  after_results_simp
  rfl

/-- No argument array is written before the first region is entered. -/
theorem W3_arg0 (c : Dev nD) : W3 m ρ c (Proc.devRef .tc main_arg0) = m ((c : Thread nD τ).loc main_arg0) := by
  unfold W3 W2 W1
  simp only [hostOps0, hostOps0_1, hostOps0_2]
  after_results

theorem W3_arg1 (c : Dev nD) : W3 m ρ c (Proc.devRef .tc main_arg1) = m ((c : Thread nD τ).loc main_arg1) := by
  unfold W3 W2 W1
  simp only [hostOps0, hostOps0_1, hostOps0_2]
  after_results

theorem W3_arg2 (c : Dev nD) : W3 m ρ c (Proc.devRef .tc main_arg2) = m ((c : Thread nD τ).loc main_arg2) := by
  unfold W3 W2 W1
  simp only [hostOps0, hostOps0_1, hostOps0_2]
  after_results

theorem W3_arg3 (c : Dev nD) : W3 m ρ c (Proc.devRef .tc main_arg3) = m ((c : Thread nD τ).loc main_arg3) := by
  unfold W3 W2 W1
  simp only [hostOps0, hostOps0_1, hostOps0_2]
  after_results

theorem W3_arg4 (c : Dev nD) : W3 m ρ c (Proc.devRef .tc main_arg4) = m ((c : Thread nD τ).loc main_arg4) := by
  unfold W3 W2 W1
  simp only [hostOps0, hostOps0_1, hostOps0_2]
  after_results

theorem W3_arg5 (c : Dev nD) : W3 m ρ c (Proc.devRef .tc main_arg5) = m ((c : Thread nD τ).loc main_arg5) := by
  unfold W3 W2 W1
  simp only [hostOps0, hostOps0_1, hostOps0_2]
  after_results

theorem W3_arg6 (c : Dev nD) : W3 m ρ c (Proc.devRef .tc main_arg6) = m ((c : Thread nD τ).loc main_arg6) := by
  unfold W3 W2 W1
  simp only [hostOps0, hostOps0_1, hostOps0_2]
  after_results

end Cert.KernelIdeal.Stages

end
-- ==== Proof.StageB.lean ====
/-
  From the first kernel region's exit to the second region's entry. The region writes only its output array, so the
  index vectors and the normalised weights are as the first host stretches left them. The host operations that follow
  gather the projected rows at the source indices, scale each by its edge's normalised weight and scatter-add them at
  the destination indices: the reference's stage %46 when the projected array is its stage %33; and they lay the first
  bias vector out as one row.
-/
import proofs.«176960_j29592324669624_1_alg».proof.Proof.StageA
import Idealize.ShloMosaic.Lib.StableHlo.Run

set_option maxRecDepth 65536

noncomputable section

namespace Cert.KernelIdeal.Stages

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## At the first region's exit -/

theorem W4_src (c : Dev nD) :
    W4 m ρ c (Proc.devRef .tc main_v4) = Cert.ReferenceIdeal.ReadP.val_main_v4 (F := F) (m ((c : Thread nD τ).loc main_arg1)) :=
  (W4_of_ne m ρ c main_v4 (by decide)).trans (W3_src m ρ c)

theorem W4_dst (c : Dev nD) :
    W4 m ρ c (Proc.devRef .tc main_v7) = Cert.ReferenceIdeal.ReadP.val_main_v7 (F := F) (m ((c : Thread nD τ).loc main_arg1)) :=
  (W4_of_ne m ρ c main_v7 (by decide)).trans (W3_dst m ρ c)

theorem W4_norm (c : Dev nD) :
    W4 m ρ c (Proc.devRef .tc main_v32) = Cert.ReferenceIdeal.ReadP.val_main_v32 (F := F) (m ((c : Thread nD τ).loc main_arg1)) :=
  (W4_of_ne m ρ c main_v32 (by decide)).trans (W3_norm m ρ c)

theorem W4_arg1 (c : Dev nD) : W4 m ρ c (Proc.devRef .tc main_arg1) = m ((c : Thread nD τ).loc main_arg1) :=
  (W4_of_ne m ρ c main_arg1 (by decide)).trans (W3_arg1 m ρ c)

theorem W4_arg2 (c : Dev nD) : W4 m ρ c (Proc.devRef .tc main_arg2) = m ((c : Thread nD τ).loc main_arg2) :=
  (W4_of_ne m ρ c main_arg2 (by decide)).trans (W3_arg2 m ρ c)

theorem W4_arg4 (c : Dev nD) : W4 m ρ c (Proc.devRef .tc main_arg4) = m ((c : Thread nD τ).loc main_arg4) :=
  (W4_of_ne m ρ c main_arg4 (by decide)).trans (W3_arg4 m ρ c)

theorem W4_arg5 (c : Dev nD) : W4 m ρ c (Proc.devRef .tc main_arg5) = m ((c : Thread nD τ).loc main_arg5) :=
  (W4_of_ne m ρ c main_arg5 (by decide)).trans (W3_arg5 m ρ c)

theorem W4_arg6 (c : Dev nD) : W4 m ρ c (Proc.devRef .tc main_arg6) = m ((c : Thread nD τ).loc main_arg6) :=
  (W4_of_ne m ρ c main_arg6 (by decide)).trans (W3_arg6 m ρ c)

/-! ## At the second region's entry -/

set_option maxHeartbeats 4000000 in
/-- The aggregated projected rows. -/
theorem W5_aggregate (c : Dev nD)
    (a0 : (⟨Cert.ReferenceIdeal.S50000x512, .f32⟩ : BufTy).Contents (Elt F))
    (a3 : (⟨Cert.ReferenceIdeal.S512x128, .f32⟩ : BufTy).Contents (Elt F))
    (hP : W4 m ρ c (Proc.devRef .tc main_v33) = Cert.ReferenceIdeal.ReadP.val_main_v33 (F := F) a0 a3) :
    W5 m ρ c (Proc.devRef .tc main_v46)
      = Cert.ReferenceIdeal.ReadP.val_main_v46 (F := F) a0 (m ((c : Thread nD τ).loc main_arg1)) a3 := by
  unfold W5
  simp only [hostOps1]
  after_results
  rw [hP, W4_src, W4_dst, W4_norm]
  rfl

/-- The first bias vector as one row. -/
theorem W5_bias (c : Dev nD) :
    W5 m ρ c (Proc.devRef .tc main_v47) = shapeCast S1x128 (m ((c : Thread nD τ).loc main_arg4)) shapeCasts_S128_S1x128 := by
  unfold W5
  simp only [hostOps1]
  after_results
  rw [W4_arg4]
  rfl

theorem W5_arg1 (c : Dev nD) : W5 m ρ c (Proc.devRef .tc main_arg1) = m ((c : Thread nD τ).loc main_arg1) := by
  unfold W5
  simp only [hostOps1]
  after_results
  exact W4_arg1 m ρ c

theorem W5_arg2 (c : Dev nD) : W5 m ρ c (Proc.devRef .tc main_arg2) = m ((c : Thread nD τ).loc main_arg2) := by
  unfold W5
  simp only [hostOps1]
  after_results
  exact W4_arg2 m ρ c

theorem W5_arg5 (c : Dev nD) : W5 m ρ c (Proc.devRef .tc main_arg5) = m ((c : Thread nD τ).loc main_arg5) := by
  unfold W5
  simp only [hostOps1]
  after_results
  exact W4_arg5 m ρ c

theorem W5_arg6 (c : Dev nD) : W5 m ρ c (Proc.devRef .tc main_arg6) = m ((c : Thread nD τ).loc main_arg6) := by
  unfold W5
  simp only [hostOps1]
  after_results
  exact W4_arg6 m ρ c

end Cert.KernelIdeal.Stages

end
-- ==== Proof.StageC.lean ====
/-
  From the second kernel region's exit to the third region's entry. The host operations here depend on the edge array
  and the edge weights only: they build the index vectors again and the second layer's normalised weights, which the
  reference builds by the same operations as its stages %54, %57 and %82. The hidden array the second region wrote and
  the remaining argument arrays pass through untouched.
-/
import proofs.«176960_j29592324669624_1_alg».proof.Proof.StageB
import Idealize.ShloMosaic.Lib.StableHlo.Run

set_option maxRecDepth 65536

noncomputable section

namespace Cert.KernelIdeal.Stages

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## At the second region's exit -/

theorem W6_arg1 (c : Dev nD) : W6 m ρ c (Proc.devRef .tc main_arg1) = m ((c : Thread nD τ).loc main_arg1) :=
  (W6_of_ne m ρ c main_arg1 (by decide)).trans (W5_arg1 m ρ c)

theorem W6_arg2 (c : Dev nD) : W6 m ρ c (Proc.devRef .tc main_arg2) = m ((c : Thread nD τ).loc main_arg2) :=
  (W6_of_ne m ρ c main_arg2 (by decide)).trans (W5_arg2 m ρ c)

theorem W6_arg5 (c : Dev nD) : W6 m ρ c (Proc.devRef .tc main_arg5) = m ((c : Thread nD τ).loc main_arg5) :=
  (W6_of_ne m ρ c main_arg5 (by decide)).trans (W5_arg5 m ρ c)

theorem W6_arg6 (c : Dev nD) : W6 m ρ c (Proc.devRef .tc main_arg6) = m ((c : Thread nD τ).loc main_arg6) :=
  (W6_of_ne m ρ c main_arg6 (by decide)).trans (W5_arg6 m ρ c)

/-! ## At the third region's entry -/

theorem W9_src (c : Dev nD) :
    W9 m ρ c (Proc.devRef .tc main_v52) = Cert.ReferenceIdeal.ReadP.val_main_v54 (F := F) (m ((c : Thread nD τ).loc main_arg1)) := by
  unfold W9 W8 W7
  simp only [hostOps2, hostOps2_1, hostOps2_2]
  after_results
  rw [W6_arg1]
  rfl

theorem W9_dst (c : Dev nD) :
    W9 m ρ c (Proc.devRef .tc main_v55) = Cert.ReferenceIdeal.ReadP.val_main_v57 (F := F) (m ((c : Thread nD τ).loc main_arg1)) := by
  unfold W9 W8 W7
  simp only [hostOps2, hostOps2_1, hostOps2_2]
  after_results
  rw [W6_arg1]
  rfl

set_option maxHeartbeats 4000000 in
/-- The three host stretches, from any contents: the second layer's normalised weights as a function of the edge
    array and the edge weights found there. -/
theorem norm2_of (W : Valuation τ sig (Elt F)) :
    after hostOps2_2 (after hostOps2_1 (after hostOps2 W)) (Proc.devRef .tc main_v80)
      = Cert.ReferenceIdeal.ReadP.val_main_v82 (F := F) (W (Proc.devRef .tc main_arg1)) (W (Proc.devRef .tc main_arg2)) := by
  simp only [hostOps2, hostOps2_1, hostOps2_2]
  after_results_simp
  rfl

/-- The normalised weights of the second layer. -/
theorem W9_norm (c : Dev nD) :
    W9 m ρ c (Proc.devRef .tc main_v80)
      = Cert.ReferenceIdeal.ReadP.val_main_v82 (F := F) (m ((c : Thread nD τ).loc main_arg1)) (m ((c : Thread nD τ).loc main_arg2)) := by
  have h := norm2_of (F := F) (W6 m ρ c)
  rw [W6_arg1, W6_arg2] at h
  exact h

/-- The hidden array passes through. -/
theorem W9_hidden (c : Dev nD) : W9 m ρ c (Proc.devRef .tc main_v48) = W6 m ρ c (Proc.devRef .tc main_v48) := by
  unfold W9 W8 W7
  simp only [hostOps2, hostOps2_1, hostOps2_2]
  after_results

theorem W9_arg5 (c : Dev nD) : W9 m ρ c (Proc.devRef .tc main_arg5) = m ((c : Thread nD τ).loc main_arg5) := by
  unfold W9 W8 W7
  simp only [hostOps2, hostOps2_1, hostOps2_2]
  after_results
  exact W6_arg5 m ρ c

theorem W9_arg6 (c : Dev nD) : W9 m ρ c (Proc.devRef .tc main_arg6) = m ((c : Thread nD τ).loc main_arg6) := by
  unfold W9 W8 W7
  simp only [hostOps2, hostOps2_1, hostOps2_2]
  after_results
  exact W6_arg6 m ρ c

end Cert.KernelIdeal.Stages

end
-- ==== Proof.StageD.lean ====
/-
  From the third kernel region's exit to the last region's entry. The region writes only its output array. The host
  operations that follow gather the projected class scores at the source indices, scale each row by its edge's
  normalised weight and scatter-add the rows at the destination indices: the reference's stage %96 when the projected
  scores are its stage %83; and they lay the second bias vector out as one row.
-/
import proofs.«176960_j29592324669624_1_alg».proof.Proof.StageC
import Idealize.ShloMosaic.Lib.StableHlo.Run

set_option maxRecDepth 65536

noncomputable section

namespace Cert.KernelIdeal.Stages

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## At the third region's exit -/

theorem W10_src (c : Dev nD) :
    W10 m ρ c (Proc.devRef .tc main_v52) = Cert.ReferenceIdeal.ReadP.val_main_v54 (F := F) (m ((c : Thread nD τ).loc main_arg1)) :=
  (W10_of_ne m ρ c main_v52 (by decide)).trans (W9_src m ρ c)

theorem W10_dst (c : Dev nD) :
    W10 m ρ c (Proc.devRef .tc main_v55) = Cert.ReferenceIdeal.ReadP.val_main_v57 (F := F) (m ((c : Thread nD τ).loc main_arg1)) :=
  (W10_of_ne m ρ c main_v55 (by decide)).trans (W9_dst m ρ c)

theorem W10_norm (c : Dev nD) :
    W10 m ρ c (Proc.devRef .tc main_v80)
      = Cert.ReferenceIdeal.ReadP.val_main_v82 (F := F) (m ((c : Thread nD τ).loc main_arg1)) (m ((c : Thread nD τ).loc main_arg2)) :=
  (W10_of_ne m ρ c main_v80 (by decide)).trans (W9_norm m ρ c)

theorem W10_arg6 (c : Dev nD) : W10 m ρ c (Proc.devRef .tc main_arg6) = m ((c : Thread nD τ).loc main_arg6) :=
  (W10_of_ne m ρ c main_arg6 (by decide)).trans (W9_arg6 m ρ c)

/-! ## At the last region's entry -/

set_option maxHeartbeats 4000000 in
/-- The aggregated class scores. -/
theorem W11_aggregate (c : Dev nD)
    (a0 : (⟨Cert.ReferenceIdeal.S50000x512, .f32⟩ : BufTy).Contents (Elt F))
    (a3 : (⟨Cert.ReferenceIdeal.S512x128, .f32⟩ : BufTy).Contents (Elt F))
    (a4 : (⟨Cert.ReferenceIdeal.S128, .f32⟩ : BufTy).Contents (Elt F))
    (a5 : (⟨Cert.ReferenceIdeal.S128x40, .f32⟩ : BufTy).Contents (Elt F))
    (hP : W10 m ρ c (Proc.devRef .tc main_v81)
      = Cert.ReferenceIdeal.ReadP.val_main_v83 (F := F) a0 (m ((c : Thread nD τ).loc main_arg1)) a3 a4 a5) :
    W11 m ρ c (Proc.devRef .tc main_v94)
      = Cert.ReferenceIdeal.ReadP.val_main_v96 (F := F) a0 (m ((c : Thread nD τ).loc main_arg1)) (m ((c : Thread nD τ).loc main_arg2)) a3 a4 a5 := by
  unfold W11
  simp only [hostOps3]
  after_results
  rw [hP, W10_src, W10_dst, W10_norm]
  rfl

/-- The second bias vector as one row. -/
theorem W11_bias (c : Dev nD) :
    W11 m ρ c (Proc.devRef .tc main_v95) = shapeCast S1x40 (m ((c : Thread nD τ).loc main_arg6)) shapeCasts_S40_S1x40 := by
  unfold W11
  simp only [hostOps3]
  after_results
  rw [W10_arg6]
  rfl

end Cert.KernelIdeal.Stages

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.Region0.lean ====
/-
  The first kernel region multiplies the feature array by the first weight matrix, 2000 rows at a grid point.
  Over the extended reals the narrowing of both operands to the shorter float format is the identity, so entry
  (p, q) of the block a grid point stores is the sum over k of features (2000·t + p, k) · weight (k, q): entry
  (2000·t + p, q) of the whole product, which is the reference's stage %33 (its dot_general, the same sum).
-/
import proofs.«176960_j29592324669624_1_alg».proof.Proof.Gen.KernelIdeal.Frame
import proofs.«176960_j29592324669624_1_alg».proof.Proof.RefRead
import proofs.«176960_j29592324669624_1_alg».proof.Proof.LibMatmulPlain
import Idealize.ShloMosaic.Lib.Pipeline.Value
import Idealize.ShloMosaic.Lib.ValueIdx

set_option maxRecDepth 16384

noncomputable section

namespace Cert.KernelIdeal.Project1

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem origin2 : (![0, 0] : Fin 2 → Nat) = fun _ => 0 := funext fun a => by fin_cases a <;> rfl

/-- Entry (p, q) of the body's stored value is the row-by-column sum over the 512 contracted coordinates. -/
theorem payload_apply (x0 : Vec Ideal S2000x512 .f32) (x1 : Vec Ideal S512x128 .f32) (p : Fin 2000) (q : Fin 128) :
    k0_pay1 x0 x1 (ix2 p q) = ∑ k : Fin 512, x0 (ix2 p k) * x1 (ix2 k q) := by
  unfold k0_pay1
  exact MatmulPlain.matmul_zero_apply (M := 2000) (K := 512) (N := 128) none
    (truncf .bf16 x0 bitsLt_bf16_f32) (truncf .bf16 x1 bitsLt_bf16_f32) p q

/-- The block index maps over the 25 grid points: the feature block and the output block move together along the
    rows; the weight matrix is one block at the origin. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the reference's stage %33. -/
theorem flushed_eq (c : Dev nD) (t : Fin cfg0.N)
    (a0 : (⟨Cert.ReferenceIdeal.S50000x512, .f32⟩ : BufTy).Contents (Elt Ideal))
    (a3 : (⟨Cert.ReferenceIdeal.S512x128, .f32⟩ : BufTy).Contents (Elt Ideal))
    (h0 : V c main_arg0 = a0) (h3 : V c main_arg3 = a3) :
    (dat0 V c).flushed 2 t
      = ((cfg0.win 2).blk t).view.read (Elt Ideal) (Cert.ReferenceIdeal.ReadP.val_main_v33 (F := Ideal) a0 a3) := by
  show (cfg0.win 2).cut (grid0.coords t) ((dat0 V c).after 2 t) = _
  rw [after0_2]
  unfold out0_2
  rw [View.canon_unit_zero origin2]
  simp only [View.ld_unit_zero (S := S2000x512) origin2, View.ld_unit_zero (S := S512x128) origin2]
  obtain ⟨e0, e1, e2, e3, e4, e5⟩ := index_facts t
  funext j
  show k0_pay1 (iblk0 V c 0 t) (iblk0 V c 1 t) j
    = Cert.ReferenceIdeal.ReadP.val_main_v33 (F := Ideal) a0 a3 (((cfg0.win 2).blk t).view.emb j)
  have hp : (j 0).val < 2000 := (j 0).isLt
  have hq : (j 1).val < 128 := (j 1).isLt
  have hj : j = ix2 (⟨(j 0).val, hp⟩ : Fin 2000) (⟨(j 1).val, hq⟩ : Fin 128) := eq_ix2 j
  refine ((congrArg (k0_pay1 (iblk0 V c 0 t) (iblk0 V c 1 t)) hj).trans
    (payload_apply (iblk0 V c 0 t) (iblk0 V c 1 t) ⟨(j 0).val, hp⟩ ⟨(j 1).val, hq⟩)).trans ?_
  rw [Cert.ReferenceIdeal.ReadP.val_main_v33_apply]
  refine Finset.sum_congr rfl fun k _ => ?_
  have hl : iblk0 V c 0 t (ix2 (⟨(j 0).val, hp⟩ : Fin 2000) k)
      = a0 (Cert.ReferenceIdeal.ReadP.lidx_main_v33 (((cfg0.win 2).blk t).view.emb j) k) := by
    show V c main_arg0 (((cfg0.win 0).blk t).view.emb (ix2 (⟨(j 0).val, hp⟩ : Fin 2000) k)) = _
    rw [h0]
    refine congrArg a0 (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * k.val = k.val
      omega
  have hr : iblk0 V c 1 t (ix2 k (⟨(j 1).val, hq⟩ : Fin 128))
      = a3 (Cert.ReferenceIdeal.ReadP.ridx_main_v33 (((cfg0.win 2).blk t).view.emb j) k) := by
    show V c main_arg3 (((cfg0.win 1).blk t).view.emb (ix2 k (⟨(j 1).val, hq⟩ : Fin 128))) = _
    rw [h3]
    refine congrArg a3 (funext fun a => Fin.ext ?_)
    match a with
    | ⟨0, _⟩ =>
      show win0_1.index t (0 : Fin 2) * 512 + 1 * k.val = k.val
      omega
    | ⟨1, _⟩ =>
      show win0_1.index t (1 : Fin 2) * 128 + 1 * (j 1).val = win0_2.index t (1 : Fin 2) * 128 + 1 * (j 1).val
      omega
  rw [hl, hr]

/-- An index of the product array lies in grid point t's block exactly when its row is among the block's 2000. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v33).slice (win0_2.rect t)).set ↔ _
  rw [View.set_slice_whole, Rect.mem_set_unit]
  exact Iff.rfl

/-- Every index of the product array is in the block of the grid point its row falls to. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < 25 := by omega
  refine ⟨⟨(i 0).val / 2000, ht⟩, flush0_2 _, ?_⟩
  rw [mem_block]
  obtain ⟨-, -, -, -, e4, e5⟩ := index_facts ⟨(i 0).val / 2000, ht⟩
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- THE REGION'S OUTPUT: when the region finds the features and the weight matrix under its two input windows, the
    array under its output window ends as their product, the reference's stage %33. -/
theorem output_eq (c : Dev nD)
    (a0 : (⟨Cert.ReferenceIdeal.S50000x512, .f32⟩ : BufTy).Contents (Elt Ideal))
    (a3 : (⟨Cert.ReferenceIdeal.S512x128, .f32⟩ : BufTy).Contents (Elt Ideal))
    (h0 : V c main_arg0 = a0) (h3 : V c main_arg3 = a3) :
    (dat0 V c).arrAt 2 cfg0.N = Cert.ReferenceIdeal.ReadP.val_main_v33 (F := Ideal) a0 a3 :=
  (dat0 V c).arrAt_eq_of_cover 2 _ (fun t _ => flushed_eq V c t a0 a3 h0 h3) covered

end Cert.KernelIdeal.Project1

end
-- ==== Proof.Region1.lean ====
/-
  The second kernel region adds the bias row to the aggregated features and clamps at zero.
  Block t of its output holds rows 5000·t … 5000·t + 4999 of the array; entry (r, q) of the array is
  max (A (r, q) + b q, 0), where A is the array the region finds under its first window and b the bias vector.
  The reference computes the same entry as its stage %50 = max (%46 + broadcast b, 0), so when the region's
  input array is the reference's stage %46 the region's output array is the reference's stage %50.
-/
import proofs.«176960_j29592324669624_1_alg».proof.Proof.Gen.KernelIdeal.Frame
import proofs.«176960_j29592324669624_1_alg».proof.Proof.RefRead
import Idealize.ShloMosaic.Lib.Pipeline.Value
import Idealize.ShloMosaic.Lib.ValueIdx
import Idealize.ShloMosaic.Lib.ValueLayout

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat Cfg Window)

variable {F : FTy → Type} [FloatOps F]

theorem origin2 : (![0, 0] : Fin 2 → Nat) = fun _ => 0 := funext fun a => by fin_cases a <;> rfl

/-- Entry (p, q) of the body's stored value: the block's entry plus the bias row's entry in column q, clamped at 0. -/
theorem payload_apply (x0 : Vec F S5000x128 .f32) (x1 : Vec F S1x128 .f32) (p : Fin 5000) (q : Fin 128) :
    k1_pay1 x0 x1 (ix2 p q)
      = FloatOps.maximumf (FloatOps.addf (x0 (ix2 p q)) (x1 (ix2 (0 : Fin 1) q))) (FloatOps.ofBits .f32 0x00000000#32) := by
  unfold k1_pay1
  show FloatOps.maximumf (FloatOps.addf (shapeCast S5000x128 x0 shapeCasts_S5000x128_S5000x128 (ix2 p q))
    (broadcastTo S5000x128 (shapeCast S1x128 x1 shapeCasts_S1x128_S1x128) broadcasts_S1x128_S5000x128 (ix2 p q))) _ = _
  rw [shapeCast_self, broadcastTo_1b_ab_apply, shapeCast_self]
  rfl

/-- The block index maps over the ten grid points: the input block moves with the output block, along the rows;
    the bias window stays at the origin. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

/-- What grid point t writes back is block t of the reference's stage %50. -/
theorem flushed_eq (c : Dev nD) (t : Fin cfg1.N)
    (a0 : (⟨Cert.ReferenceIdeal.S50000x512, .f32⟩ : BufTy).Contents (Elt F))
    (a1 : (⟨Cert.ReferenceIdeal.S2x800000, .i32⟩ : BufTy).Contents (Elt F))
    (a3 : (⟨Cert.ReferenceIdeal.S512x128, .f32⟩ : BufTy).Contents (Elt F))
    (a4 : (⟨Cert.ReferenceIdeal.S128, .f32⟩ : BufTy).Contents (Elt F))
    (hA : V c main_v46 = Cert.ReferenceIdeal.ReadP.val_main_v46 (F := F) a0 a1 a3)
    (hb : V c main_v47 = shapeCast S1x128 a4 shapeCasts_S128_S1x128) :
    (dat1 V c).flushed 2 t
      = ((cfg1.win 2).blk t).view.read (Elt F) (Cert.ReferenceIdeal.ReadP.val_main_v50 (F := F) a0 a1 a3 a4) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S1x128) origin2]
  obtain ⟨e0, e1, e2, e3, e4, e5⟩ := index_facts t
  funext j
  show k1_pay1 (iblk1 V c 0 t) (iblk1 V c 1 t) j
    = Cert.ReferenceIdeal.ReadP.val_main_v50 (F := F) a0 a1 a3 a4 (((cfg1.win 2).blk t).view.emb j)
  have hp : (j 0).val < 5000 := (j 0).isLt
  have hq : (j 1).val < 128 := (j 1).isLt
  have hj : j = ix2 (⟨(j 0).val, hp⟩ : Fin 5000) (⟨(j 1).val, hq⟩ : Fin 128) := eq_ix2 j
  refine ((congrArg (k1_pay1 (iblk1 V c 0 t) (iblk1 V c 1 t)) hj).trans
    (payload_apply (iblk1 V c 0 t) (iblk1 V c 1 t) ⟨(j 0).val, hp⟩ ⟨(j 1).val, hq⟩)).trans ?_
  rw [Cert.ReferenceIdeal.ReadP.val_main_v50_apply, Cert.ReferenceIdeal.ReadP.val_main_v49_apply,
    Cert.ReferenceIdeal.ReadP.val_main_call1_v0_apply, Cert.ReferenceIdeal.ReadP.val_main_call1_cst_apply,
    Cert.ReferenceIdeal.ReadP.val_main_v48_apply, Cert.ReferenceIdeal.ReadP.val_main_v47_apply]
  have hx : iblk1 V c 0 t (ix2 (⟨(j 0).val, hp⟩ : Fin 5000) (⟨(j 1).val, hq⟩ : Fin 128))
      = Cert.ReferenceIdeal.ReadP.val_main_v46 (F := F) a0 a1 a3 (((cfg1.win 2).blk t).view.emb j) := by
    show V c main_v46 (((cfg1.win 0).blk t).view.emb (ix2 (⟨(j 0).val, hp⟩ : Fin 5000) (⟨(j 1).val, hq⟩ : Fin 128))) = _
    rw [hA]
    refine congrArg (Cert.ReferenceIdeal.ReadP.val_main_v46 (F := F) a0 a1 a3) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  have hbias : iblk1 V c 1 t (ix2 (0 : Fin 1) (⟨(j 1).val, hq⟩ : Fin 128))
      = a4 (Cert.ReferenceIdeal.ReadP.idx_main_v47 (Cert.ReferenceIdeal.ReadP.idx_main_v48 (((cfg1.win 2).blk t).view.emb j))) := by
    show V c main_v47 (((cfg1.win 1).blk t).view.emb (ix2 (0 : Fin 1) (⟨(j 1).val, hq⟩ : Fin 128))) = _
    rw [hb]
    refine shapeCast_apply a4 shapeCasts_S128_S1x128 _ _ ?_
    rw [Shape.rowMajor_val_two, Shape.rowMajor_val_one]
    show win1_2.index t (1 : Fin 2) * 128 + 1 * (j 1).val
      = (win1_1.index t (0 : Fin 2) * 1 + 1 * 0) * 128 + (win1_1.index t (1 : Fin 2) * 128 + 1 * (j 1).val)
    omega
  rw [hx, hbias]

/-- An index of the array lies in grid point t's block exactly when each coordinate is in the block's range. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v48).slice (win1_2.rect t)).set ↔ _
  rw [View.set_slice_whole, Rect.mem_set_unit]
  exact Iff.rfl

/-- Every index of the array is in the block of the grid point its row falls to. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have ht : (i 0).val / 5000 < 10 := by omega
  refine ⟨⟨(i 0).val / 5000, ht⟩, flush1_2 _, ?_⟩
  rw [mem_block]
  obtain ⟨-, -, -, -, e4, e5⟩ := index_facts ⟨(i 0).val / 5000, ht⟩
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

/-- THE REGION'S OUTPUT: when the region finds the reference's stage %46 under its first window and the bias vector,
    as one row, under its second, the array under its output window ends as the reference's stage %50. -/
theorem output_eq (c : Dev nD)
    (a0 : (⟨Cert.ReferenceIdeal.S50000x512, .f32⟩ : BufTy).Contents (Elt F))
    (a1 : (⟨Cert.ReferenceIdeal.S2x800000, .i32⟩ : BufTy).Contents (Elt F))
    (a3 : (⟨Cert.ReferenceIdeal.S512x128, .f32⟩ : BufTy).Contents (Elt F))
    (a4 : (⟨Cert.ReferenceIdeal.S128, .f32⟩ : BufTy).Contents (Elt F))
    (hA : V c main_v46 = Cert.ReferenceIdeal.ReadP.val_main_v46 (F := F) a0 a1 a3)
    (hb : V c main_v47 = shapeCast S1x128 a4 shapeCasts_S128_S1x128) :
    (dat1 V c).arrAt 2 cfg1.N = Cert.ReferenceIdeal.ReadP.val_main_v50 (F := F) a0 a1 a3 a4 :=
  (dat1 V c).arrAt_eq_of_cover 2 _ (fun t _ => flushed_eq V c t a0 a1 a3 a4 hA hb) covered

end Cert.KernelIdeal.BiasRelu

end
-- ==== Proof.Region2.lean ====
/-
  The third kernel region multiplies the clamped hidden array by the second weight matrix, 2000 rows at a grid
  point. Entry (p, q) of the block a grid point stores is the sum over k of hidden (2000·t + p, k) · weight (k, q):
  entry (2000·t + p, q) of the whole product. When the hidden array is the reference's stage %50, that product is the
  reference's stage %83 (its second dot_general, the same sum).
-/
import proofs.«176960_j29592324669624_1_alg».proof.Proof.Gen.KernelIdeal.Frame
import proofs.«176960_j29592324669624_1_alg».proof.Proof.RefRead
import proofs.«176960_j29592324669624_1_alg».proof.Proof.LibMatmulPlain
import Idealize.ShloMosaic.Lib.Pipeline.Value
import Idealize.ShloMosaic.Lib.ValueIdx

set_option maxRecDepth 16384

noncomputable section

namespace Cert.KernelIdeal.Project2

open Cert.KernelIdeal Cert.KernelIdeal.Gen Idealize.ShloMosaic Idealize.ShloMosaic.TcCoe Idealize.SL.Sem
open Idealize.ShloMosaic.ValueIdx
open Idealize.ShloMosaic.Pipeline (Dat Cfg Window)

theorem origin2 : (![0, 0] : Fin 2 → Nat) = fun _ => 0 := funext fun a => by fin_cases a <;> rfl

/-- Entry (p, q) of the body's stored value is the row-by-column sum over the 128 contracted coordinates. -/
theorem payload_apply (x0 : FVec Ideal S2000x128 .f32) (x1 : FVec Ideal S128x40 .f32) (p : Fin 2000) (q : Fin 40) :
    k2_pay1 (F := Ideal) x0 x1 (ix2 p q) = ∑ k : Fin 128, x0 (ix2 p k) * x1 (ix2 k q) := by
  unfold k2_pay1
  have hs : shapeCast S2000x128 x0 shapeCasts_S2000x128_S2000x128 = x0 := shapeCast_self x0 _
  refine Eq.trans ?_ (MatmulPlain.matmul_zero_apply (M := 2000) (K := 128) (N := 40) (φ₁ := .f32) (φ₂ := .f32) none x0 x1 p q)
  exact congrArg (fun v => matmul dot_S2000x128_S128x40_S2000x40_1_0_0_1_n_n none v x1 (constant S2000x40 .f32 0x00000000#32) (ix2 p q)) hs

/-- The block index maps over the 25 grid points: the hidden block and the output block move together along the
    rows; the weight matrix is one block at the origin. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of any array G whose entry (r, q) is the sum over k of H (r, k) · B (k, q),
    H and B the arrays the region finds under its two input windows. -/
theorem flushed_core (c : Dev nD) (t : Fin cfg2.N)
    (H : FVec Ideal S50000x128 .f32) (B : FVec Ideal S128x40 .f32) (G : FVec Ideal S50000x40 .f32)
    (hH : V c main_v48 = H) (hB : V c main_arg5 = B)
    (hG : ∀ (r : Fin 50000) (q : Fin 40), G (ix2 r q) = ∑ k : Fin 128, H (ix2 r k) * B (ix2 k q)) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero origin2]
  simp only [View.ld_unit_zero (S := S2000x128) origin2, View.ld_unit_zero (S := S128x40) origin2]
  obtain ⟨e0, e1, e2, e3, e4, e5⟩ := index_facts t
  funext j
  show k2_pay1 (iblk2 V c 0 t) (iblk2 V c 1 t) j = G (((cfg2.win 2).blk t).view.emb j)
  have hp : (j 0).val < 2000 := (j 0).isLt
  have hq : (j 1).val < 40 := (j 1).isLt
  have hj : j = ix2 (⟨(j 0).val, hp⟩ : Fin 2000) (⟨(j 1).val, hq⟩ : Fin 40) := eq_ix2 j
  have hr : win2_2.index t (0 : Fin 2) * 2000 + 1 * (j 0).val < 50000 := by
    have h1 := t.isLt
    have h2 : cfg2.N = 25 := rfl
    omega
  have hc : win2_2.index t (1 : Fin 2) * 40 + 1 * (j 1).val < 40 := by omega
  have hi : ((cfg2.win 2).blk t).view.emb j
      = ix2 (⟨win2_2.index t (0 : Fin 2) * 2000 + 1 * (j 0).val, hr⟩ : Fin 50000)
          (⟨win2_2.index t (1 : Fin 2) * 40 + 1 * (j 1).val, hc⟩ : Fin 40) := eq_ix2 _
  refine ((congrArg (k2_pay1 (iblk2 V c 0 t) (iblk2 V c 1 t)) hj).trans
    (payload_apply (iblk2 V c 0 t) (iblk2 V c 1 t) ⟨(j 0).val, hp⟩ ⟨(j 1).val, hq⟩)).trans ?_
  refine Eq.trans ?_ ((congrArg G hi).trans (hG _ _)).symm
  refine Finset.sum_congr rfl fun k _ => ?_
  have hl : iblk2 V c 0 t (ix2 (⟨(j 0).val, hp⟩ : Fin 2000) k)
      = H (ix2 (⟨win2_2.index t (0 : Fin 2) * 2000 + 1 * (j 0).val, hr⟩ : Fin 50000) k) := by
    show V c main_v48 (((cfg2.win 0).blk t).view.emb (ix2 (⟨(j 0).val, hp⟩ : Fin 2000) k)) = _
    rw [hH]
    refine congrArg H (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 128 + 1 * k.val = k.val
      omega
  have hrr : iblk2 V c 1 t (ix2 k (⟨(j 1).val, hq⟩ : Fin 40))
      = B (ix2 k (⟨win2_2.index t (1 : Fin 2) * 40 + 1 * (j 1).val, hc⟩ : Fin 40)) := by
    show V c main_arg5 (((cfg2.win 1).blk t).view.emb (ix2 k (⟨(j 1).val, hq⟩ : Fin 40))) = _
    rw [hB]
    refine congrArg B (funext fun a => Fin.ext ?_)
    match a with
    | ⟨0, _⟩ =>
      show win2_1.index t (0 : Fin 2) * 128 + 1 * k.val = k.val
      omega
    | ⟨1, _⟩ =>
      show win2_1.index t (1 : Fin 2) * 40 + 1 * (j 1).val = win2_2.index t (1 : Fin 2) * 40 + 1 * (j 1).val
      omega
  rw [hl, hrr]

/-- An index of the product array lies in grid point t's block exactly when its row is among the block's 2000. -/
theorem mem_block (t : Fin cfg2.N) (i : S50000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v81).slice (win2_2.rect t)).set ↔ _
  rw [View.set_slice_whole, Rect.mem_set_unit]
  exact Iff.rfl

/-- Every index of the product array is in the block of the grid point its row falls to. -/
theorem covered (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  have ht : (i 0).val / 2000 < 25 := by omega
  refine ⟨⟨(i 0).val / 2000, ht⟩, flush2_2 _, ?_⟩
  rw [mem_block]
  obtain ⟨-, -, -, -, e4, e5⟩ := index_facts ⟨(i 0).val / 2000, ht⟩
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 40 ≤ (i 1).val
      ∧ (i 1).val < win2_2.index ⟨(i 0).val / 2000, ht⟩ (1 : Fin 2) * 40 + 40
    rw [e5]; omega

/-- Entry (r, q) of the reference's stage %83 is the sum over k of its stage %50 at (r, k) times the weight at (k, q). -/
theorem stage_entry (a0 : (⟨Cert.ReferenceIdeal.S50000x512, .f32⟩ : BufTy).Contents (Elt Ideal))
    (a1 : (⟨Cert.ReferenceIdeal.S2x800000, .i32⟩ : BufTy).Contents (Elt Ideal))
    (a3 : (⟨Cert.ReferenceIdeal.S512x128, .f32⟩ : BufTy).Contents (Elt Ideal))
    (a4 : (⟨Cert.ReferenceIdeal.S128, .f32⟩ : BufTy).Contents (Elt Ideal))
    (a5 : (⟨Cert.ReferenceIdeal.S128x40, .f32⟩ : BufTy).Contents (Elt Ideal)) (r : Fin 50000) (q : Fin 40) :
    Cert.ReferenceIdeal.ReadP.val_main_v83 (F := Ideal) a0 a1 a3 a4 a5 (ix2 r q)
      = ∑ k : Fin 128, Cert.ReferenceIdeal.ReadP.val_main_v50 (F := Ideal) a0 a1 a3 a4 (ix2 r k) * a5 (ix2 k q) := by
  refine (Cert.ReferenceIdeal.ReadP.val_main_v83_apply a0 a1 a3 a4 a5 (ix2 r q)).trans (Finset.sum_congr rfl fun k _ => ?_)
  have hl : Cert.ReferenceIdeal.ReadP.lidx_main_v83 (ix2 r q) k = ix2 r k := by
    funext a; apply Fin.ext
    fin_cases a <;> rfl
  have hr : Cert.ReferenceIdeal.ReadP.ridx_main_v83 (ix2 r q) k = ix2 k q := by
    funext a; apply Fin.ext
    fin_cases a <;> rfl
  rw [hl, hr]

/-- THE REGION'S OUTPUT: when the region finds the reference's stage %50 under its first window and the second weight
    matrix under its second, the array under its output window ends as the reference's stage %83. -/
theorem output_eq (c : Dev nD)
    (a0 : (⟨Cert.ReferenceIdeal.S50000x512, .f32⟩ : BufTy).Contents (Elt Ideal))
    (a1 : (⟨Cert.ReferenceIdeal.S2x800000, .i32⟩ : BufTy).Contents (Elt Ideal))
    (a3 : (⟨Cert.ReferenceIdeal.S512x128, .f32⟩ : BufTy).Contents (Elt Ideal))
    (a4 : (⟨Cert.ReferenceIdeal.S128, .f32⟩ : BufTy).Contents (Elt Ideal))
    (a5 : (⟨Cert.ReferenceIdeal.S128x40, .f32⟩ : BufTy).Contents (Elt Ideal))
    (hH : V c main_v48 = Cert.ReferenceIdeal.ReadP.val_main_v50 (F := Ideal) a0 a1 a3 a4) (h5 : V c main_arg5 = a5) :
    (dat2 V c).arrAt 2 cfg2.N = Cert.ReferenceIdeal.ReadP.val_main_v83 (F := Ideal) a0 a1 a3 a4 a5 :=
  (dat2 V c).arrAt_eq_of_cover 2 _
    (fun t _ => flushed_core V c t _ _ _ hH h5 (fun r q => stage_entry a0 a1 a3 a4 a5 r q)) covered

end Cert.KernelIdeal.Project2

end
-- ==== Proof.LogSoftmaxRow.lean ====
/-
  The log-softmax of one row of extended reals: with M the largest entry (a fold of max from −∞, the value of the
  float word 0xFF800000), entry q is (z q − M) − log (Σ k, exp (z k − M)).
-/
import Idealize.ShloMosaic.PureOps.Ideal

noncomputable section

namespace Cert.LogSoftmaxRow

open Idealize.ShloMosaic

/-- The largest entry of a row, from −∞. -/
def rowMax {n : ℕ} (z : Fin n → EReal) : EReal :=
  (Finset.univ : Finset (Fin n)).fold max (Ideal.ofBits .f32 0xFF800000#32) z

/-- Entry q of the log-softmax of a row: the shifted entry minus the logarithm of the sum of the shifted exponentials. -/
def row {n : ℕ} (z : Fin n → EReal) (q : Fin n) : EReal :=
  (z q - rowMax z) - Ideal.log (∑ k : Fin n, Ideal.exp (z k - rowMax z))

/-- −∞ is neutral for max. -/
theorem max_negInf (y : EReal) : max (Ideal.ofBits .f32 0xFF800000#32) y = y := by
  simp [Ideal.ofBits, Ideal.ieee]

end Cert.LogSoftmaxRow

end
-- ==== Proof.Region3Body.lean ====
/-
  One row of the last kernel region. With z k the k-th entry of a row after the bias is added, the body stores
  (z q − M) − log (Σ k, exp (z k − M)), M the largest entry of the row (a fold of max from −∞ over the 40 lanes).
  This module reads the body's stored value at an entry as that row function.
-/
import proofs.«176960_j29592324669624_1_alg».proof.Proof.Gen.KernelIdeal.Skeleton
import proofs.«176960_j29592324669624_1_alg».proof.Proof.LogSoftmaxRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LogSoftmaxBody

open Cert.KernelIdeal Cert.KernelIdeal.Gen Idealize.ShloMosaic Idealize.ShloMosaic.TcCoe
open Idealize.ShloMosaic.ValueIdx Cert.LogSoftmaxRow

/-- A [5000] vector cast to a column reads, at (p, u), the vector at p. -/
theorem column_apply (w : FVec Ideal S5000 .f32) (p : Fin 5000) (u : Fin 1) :
    shapeCast S5000x1 w shapeCasts_S5000_S5000x1 (ix2 p u) = w (ix1 p) :=
  shapeCast_apply w shapeCasts_S5000_S5000x1 _ _ (by
    have hu : u.val = 0 := by omega
    rw [Shape.rowMajor_val_two, Shape.rowMajor_val_one]
    show p.val = p.val * 1 + u.val
    omega)

/-- A column broadcast along the 40 lanes reads, at (p, q), the column at row p. -/
theorem lanes_apply (u : FVec Ideal S5000x1 .f32) (p : Fin 5000) (q : Fin 40) :
    broadcastTo S5000x40 u broadcasts_S5000x1_S5000x40 (ix2 p q) = u (ix2 p (0 : Fin 1)) := by
  refine broadcastTo_apply u broadcasts_S5000x1_S5000x40 (ix2 p q) (ix2 p (0 : Fin 1)) fun ax => ?_
  match ax with
  | ⟨0, _⟩ =>
    show p.val = if (5000 : ℕ) = 1 then 0 else p.val
    rw [if_neg (by decide)]
  | ⟨1, _⟩ => rfl

/-- The row an index of the reduced shape stands for, with lane k put back, is (p, k). -/
theorem lift_row (h : S5000x40.Reduces [1] S5000) (p : Fin 5000) (k : Fin (S5000x40.size 1)) :
    h.lift (ix1 p) k = ix2 p (⟨k.val, k.isLt⟩ : Fin 40) := by
  funext c; apply Fin.ext
  fin_cases c <;> rfl

/-- The bias row added to a block. -/
def biased (x0 : Vec Ideal S5000x40 .f32) (x1 : Vec Ideal S1x40 .f32) : FVec Ideal S5000x40 .f32 :=
  addf (shapeCast S5000x40 x0 shapeCasts_S5000x40_S5000x40)
    (broadcastTo S5000x40 (shapeCast S1x40 x1 shapeCasts_S1x40_S1x40) broadcasts_S1x40_S5000x40)

theorem biased_apply (x0 : Vec Ideal S5000x40 .f32) (x1 : Vec Ideal S1x40 .f32) (p : Fin 5000) (k : Fin 40) :
    biased x0 x1 (ix2 p k) = x0 (ix2 p k) + x1 (ix2 (0 : Fin 1) k) := by
  unfold biased
  show shapeCast S5000x40 x0 shapeCasts_S5000x40_S5000x40 (ix2 p k)
    + broadcastTo S5000x40 (shapeCast S1x40 x1 shapeCasts_S1x40_S1x40) broadcasts_S1x40_S5000x40 (ix2 p k) = _
  rw [shapeCast_self, broadcastTo_1b_ab_apply, shapeCast_self]

/-- The row maximum the body takes, at row p. -/
theorem lane_max_apply (v : FVec Ideal S5000x40 .f32) (p : Fin 5000) :
    multiReduction .maximumf [1] S5000 v 0xFF800000#32 reduces_S5000x40_S5000 (.inl rfl) rfl (ix1 p)
      = rowMax fun k : Fin 40 => v (ix2 p k) := by
  refine (Ideal.multiReduction_maximumf_single v 0xFF800000#32 reduces_S5000x40_S5000 (.inl rfl) rfl (ix1 p)).trans ?_
  unfold rowMax
  have hf : (v ∘ reduces_S5000x40_S5000.lift (ix1 p)) = fun k : Fin 40 => v (ix2 p k) :=
    funext fun k => congrArg v (lift_row reduces_S5000x40_S5000 p k)
  exact congrArg (fun f => Finset.fold max (Ideal.ofBits .f32 0xFF800000#32) f (Finset.univ : Finset (Fin 40))) hf

/-- The lane sum the body takes, at row p. -/
theorem lane_sum_apply (v : FVec Ideal S5000x40 .f32) (p : Fin 5000) :
    multiReduction .add [1] S5000 v 0x00000000#32 reduces_S5000x40_S5000 (.inl rfl) rfl (ix1 p)
      = ∑ k : Fin 40, v (ix2 p k) := by
  refine (Ideal.multiReduction_add_single v 0x00000000#32 reduces_S5000x40_S5000 (.inl rfl) rfl (ix1 p)).trans ?_
  exact Finset.sum_congr rfl fun k _ => congrArg v (lift_row reduces_S5000x40_S5000 p k)

/-- Entry (p, q) of the body's stored value is entry q of the log-softmax of row p of the biased block. -/
theorem payload_apply (x0 : Vec Ideal S5000x40 .f32) (x1 : Vec Ideal S1x40 .f32) (p : Fin 5000) (q : Fin 40) :
    k3_pay1 x0 x1 (ix2 p q) = row (fun k : Fin 40 => x0 (ix2 p k) + x1 (ix2 (0 : Fin 1) k)) q := by
  have hb : (fun k : Fin 40 => x0 (ix2 p k) + x1 (ix2 (0 : Fin 1) k)) = fun k : Fin 40 => biased x0 x1 (ix2 p k) :=
    funext fun k => (biased_apply x0 x1 p k).symm
  rw [hb]
  unfold k3_pay1
  show (biased x0 x1 (ix2 p q)
      - broadcastTo S5000x40 (shapeCast S5000x1 (multiReduction .maximumf [1] S5000 (biased x0 x1) 0xFF800000#32 reduces_S5000x40_S5000 (.inl rfl) rfl) shapeCasts_S5000_S5000x1) broadcasts_S5000x1_S5000x40 (ix2 p q))
      - broadcastTo S5000x40 (log (shapeCast S5000x1 (multiReduction .add [1] S5000 (exp (subf (biased x0 x1) (broadcastTo S5000x40 (shapeCast S5000x1 (multiReduction .maximumf [1] S5000 (biased x0 x1) 0xFF800000#32 reduces_S5000x40_S5000 (.inl rfl) rfl) shapeCasts_S5000_S5000x1) broadcasts_S5000x1_S5000x40))) 0x00000000#32 reduces_S5000x40_S5000 (.inl rfl) rfl) shapeCasts_S5000_S5000x1)) broadcasts_S5000x1_S5000x40 (ix2 p q) = _
  generalize biased x0 x1 = v
  rw [lanes_apply, lanes_apply, column_apply, lane_max_apply]
  show (v (ix2 p q) - rowMax fun k : Fin 40 => v (ix2 p k))
      - Ideal.log (shapeCast S5000x1 (multiReduction .add [1] S5000 (exp (subf v (broadcastTo S5000x40 (shapeCast S5000x1 (multiReduction .maximumf [1] S5000 v 0xFF800000#32 reduces_S5000x40_S5000 (.inl rfl) rfl) shapeCasts_S5000_S5000x1) broadcasts_S5000x1_S5000x40))) 0x00000000#32 reduces_S5000x40_S5000 (.inl rfl) rfl) shapeCasts_S5000_S5000x1 (ix2 p (0 : Fin 1))) = _
  rw [column_apply, lane_sum_apply]
  unfold row
  refine congrArg (fun s => (v (ix2 p q) - rowMax fun k : Fin 40 => v (ix2 p k)) - Ideal.log s) (Finset.sum_congr rfl fun k _ => ?_)
  show Ideal.exp (v (ix2 p k) - broadcastTo S5000x40 (shapeCast S5000x1 (multiReduction .maximumf [1] S5000 v 0xFF800000#32 reduces_S5000x40_S5000 (.inl rfl) rfl) shapeCasts_S5000_S5000x1) broadcasts_S5000x1_S5000x40 (ix2 p k)) = _
  rw [lanes_apply, column_apply, lane_max_apply]

end Cert.KernelIdeal.LogSoftmaxBody

end
-- ==== Proof.RefLogSoftmax.lean ====
/-
  The reference's last stages: jax's log_softmax of the biased array %99. Row by row it subtracts the row maximum
  (a max-reduce from −∞, then one more max with −∞, which changes nothing), exponentiates, sums the row from 0, takes the
  logarithm and subtracts it. At entry (r, q) that is entry q of the log-softmax of row r of %99.
-/
import proofs.«176960_j29592324669624_1_alg».proof.Proof.RefRead
import proofs.«176960_j29592324669624_1_alg».proof.Proof.LogSoftmaxRow
import Idealize.ShloMosaic.Lib.ValueIdx
import Idealize.ShloMosaic.PureOps.Ideal.Laws

set_option maxRecDepth 16384

noncomputable section

namespace Cert.ReferenceIdeal.LogSoftmax

open Cert.ReferenceIdeal Cert.ReferenceIdeal.Gen Idealize.ShloMosaic Idealize.ShloMosaic.TcCoe
open Idealize.ShloMosaic.ValueIdx Cert.LogSoftmaxRow Cert.ReferenceIdeal.ReadP

theorem reduces_rows : S50000x40.Reduces [1] S50000 := by decide

/-- Row r of the reduced shape with lane k put back is (r, k). -/
theorem lift_row (r : Fin 50000) (k : Fin (S50000x40.size 1)) :
    reduces_rows.lift (ix1 r) k = ix2 r (⟨k.val, k.isLt⟩ : Fin 40) := by
  funext c; apply Fin.ext
  fin_cases c <;> rfl

/-- A max-reduce over the 40 lanes from −∞, at row r, is the row's maximum. -/
theorem host_row_max (x : FVec Ideal S50000x40 .f32) (r : Fin 50000) :
    Host.reduce FloatOps.maximumf x (constant (F := Ideal) S_ .f32 0xFF800000#32) reducesTo_S50000x40_S50000_d1 h_S_ (ix1 r)
      = rowMax fun k : Fin 40 => x (ix2 r k) := by
  rw [Host.reduce_eq_fold_single FloatOps.maximumf x _ reducesTo_S50000x40_S50000_d1 reduces_rows h_S_]
  unfold rowMax
  have hf : (x ∘ reduces_rows.lift (ix1 r)) = fun k : Fin 40 => x (ix2 r k) :=
    funext fun k => congrArg x (lift_row r k)
  exact congrArg (fun f => Finset.fold max (Ideal.ofBits .f32 0xFF800000#32) f (Finset.univ : Finset (Fin 40))) hf

/-- The biased array %99, as an array of extended reals. -/
abbrev biased (a0 : (⟨S50000x512, .f32⟩ : BufTy).Contents (Elt Ideal)) (a1 : (⟨S2x800000, .i32⟩ : BufTy).Contents (Elt Ideal))
    (a2 : (⟨S800000, .f32⟩ : BufTy).Contents (Elt Ideal)) (a3 : (⟨S512x128, .f32⟩ : BufTy).Contents (Elt Ideal))
    (a4 : (⟨S128, .f32⟩ : BufTy).Contents (Elt Ideal)) (a5 : (⟨S128x40, .f32⟩ : BufTy).Contents (Elt Ideal))
    (a6 : (⟨S40, .f32⟩ : BufTy).Contents (Elt Ideal)) : FVec Ideal S50000x40 .f32 :=
  val_main_v99 (F := Ideal) a0 a1 a2 a3 a4 a5 a6

/-- The reference's max-reduce of %99 at row r is the row's maximum from −∞. -/
theorem row_max_apply (a0 : (⟨S50000x512, .f32⟩ : BufTy).Contents (Elt Ideal)) (a1 : (⟨S2x800000, .i32⟩ : BufTy).Contents (Elt Ideal))
    (a2 : (⟨S800000, .f32⟩ : BufTy).Contents (Elt Ideal)) (a3 : (⟨S512x128, .f32⟩ : BufTy).Contents (Elt Ideal))
    (a4 : (⟨S128, .f32⟩ : BufTy).Contents (Elt Ideal)) (a5 : (⟨S128x40, .f32⟩ : BufTy).Contents (Elt Ideal))
    (a6 : (⟨S40, .f32⟩ : BufTy).Contents (Elt Ideal)) (r : Fin 50000) :
    val_main_call3_v0 (F := Ideal) a0 a1 a2 a3 a4 a5 a6 (ix1 r) = rowMax fun k : Fin 40 => biased a0 a1 a2 a3 a4 a5 a6 (ix2 r k) :=
  host_row_max (biased a0 a1 a2 a3 a4 a5 a6) r

/-- The aggregated class scores %96 and the bias vector, as arrays of extended reals. -/
abbrev scores (a0 : (⟨S50000x512, .f32⟩ : BufTy).Contents (Elt Ideal)) (a1 : (⟨S2x800000, .i32⟩ : BufTy).Contents (Elt Ideal))
    (a2 : (⟨S800000, .f32⟩ : BufTy).Contents (Elt Ideal)) (a3 : (⟨S512x128, .f32⟩ : BufTy).Contents (Elt Ideal))
    (a4 : (⟨S128, .f32⟩ : BufTy).Contents (Elt Ideal)) (a5 : (⟨S128x40, .f32⟩ : BufTy).Contents (Elt Ideal)) : FVec Ideal S50000x40 .f32 :=
  val_main_v96 (F := Ideal) a0 a1 a2 a3 a4 a5

abbrev biasVec (a6 : (⟨S40, .f32⟩ : BufTy).Contents (Elt Ideal)) : FVec Ideal S40 .f32 := a6

/-- Entry (r, k) of the biased array: the score plus the bias of class k. -/
theorem biased_apply (a0 : (⟨S50000x512, .f32⟩ : BufTy).Contents (Elt Ideal)) (a1 : (⟨S2x800000, .i32⟩ : BufTy).Contents (Elt Ideal))
    (a2 : (⟨S800000, .f32⟩ : BufTy).Contents (Elt Ideal)) (a3 : (⟨S512x128, .f32⟩ : BufTy).Contents (Elt Ideal))
    (a4 : (⟨S128, .f32⟩ : BufTy).Contents (Elt Ideal)) (a5 : (⟨S128x40, .f32⟩ : BufTy).Contents (Elt Ideal))
    (a6 : (⟨S40, .f32⟩ : BufTy).Contents (Elt Ideal)) (r : Fin 50000) (k : Fin 40) :
    biased a0 a1 a2 a3 a4 a5 a6 (ix2 r k) = scores a0 a1 a2 a3 a4 a5 (ix2 r k) + biasVec a6 (ix1 k) := by
  show val_main_v99 (F := Ideal) a0 a1 a2 a3 a4 a5 a6 (ix2 r k) = _
  rw [val_main_v99_apply, val_main_v98_apply, val_main_v97_apply, Ideal.addf_def]
  have hi : idx_main_v97 (idx_main_v98 (ix2 r k)) = ix1 k := by
    funext c; apply Fin.ext
    fin_cases c <;> rfl
  rw [hi]

/-- The shift the reference subtracts at any entry of row r: the row's maximum. -/
theorem shift_apply (a0 : (⟨S50000x512, .f32⟩ : BufTy).Contents (Elt Ideal)) (a1 : (⟨S2x800000, .i32⟩ : BufTy).Contents (Elt Ideal))
    (a2 : (⟨S800000, .f32⟩ : BufTy).Contents (Elt Ideal)) (a3 : (⟨S512x128, .f32⟩ : BufTy).Contents (Elt Ideal))
    (a4 : (⟨S128, .f32⟩ : BufTy).Contents (Elt Ideal)) (a5 : (⟨S128x40, .f32⟩ : BufTy).Contents (Elt Ideal))
    (a6 : (⟨S40, .f32⟩ : BufTy).Contents (Elt Ideal)) (r : Fin 50000) (k : Fin 40) :
    val_main_call3_v4 (F := Ideal) a0 a1 a2 a3 a4 a5 a6 (ix2 r k)
      = rowMax fun k : Fin 40 => biased a0 a1 a2 a3 a4 a5 a6 (ix2 r k) := by
  rw [val_main_call3_v4_apply, val_main_call3_v3_apply, val_main_call3_v2_apply, val_main_call3_v1_apply,
    val_main_call3_cst_0_apply]
  have hi : idx_main_call3_v3 (idx_main_call3_v4 (ix2 r k)) = ix1 r := by
    funext c; apply Fin.ext
    fin_cases c <;> rfl
  rw [hi, row_max_apply]
  exact max_negInf _

/-- A sum over the 40 lanes from 0, at row r, is the row's sum. -/
theorem host_row_sum (x : FVec Ideal S50000x40 .f32) (r : Fin 50000) :
    Host.reduceAdd x (constant (F := Ideal) S_ .f32 0x00000000#32) reducesTo_S50000x40_S50000_d1 h_S_ (ix1 r)
      = ∑ k : Fin 40, x (ix2 r k) := by
  simp only [Host.reduceAdd, Ideal.hostReduceAdd_def]
  rw [Ideal.hostReduceAdd_single reducesTo_S50000x40_S50000_d1 reduces_rows]
  show Ideal.ofBits .f32 0x00000000#32 + ∑ k : Fin (S50000x40.size 1), x (reduces_rows.lift (ix1 r) k) = _
  rw [Ideal.ofBits_zero_f32, zero_add]
  exact Finset.sum_congr rfl fun k _ => congrArg x (lift_row r k)

/-- The exponentials the reference sums, as an array of extended reals. -/
abbrev shiftedExp (a0 : (⟨S50000x512, .f32⟩ : BufTy).Contents (Elt Ideal)) (a1 : (⟨S2x800000, .i32⟩ : BufTy).Contents (Elt Ideal))
    (a2 : (⟨S800000, .f32⟩ : BufTy).Contents (Elt Ideal)) (a3 : (⟨S512x128, .f32⟩ : BufTy).Contents (Elt Ideal))
    (a4 : (⟨S128, .f32⟩ : BufTy).Contents (Elt Ideal)) (a5 : (⟨S128x40, .f32⟩ : BufTy).Contents (Elt Ideal))
    (a6 : (⟨S40, .f32⟩ : BufTy).Contents (Elt Ideal)) : FVec Ideal S50000x40 .f32 :=
  val_main_call3_v6 (F := Ideal) a0 a1 a2 a3 a4 a5 a6

/-- Entry (r, k) of the exponentials: exp of the entry minus the row's maximum. -/
theorem shifted_exp_apply (a0 : (⟨S50000x512, .f32⟩ : BufTy).Contents (Elt Ideal)) (a1 : (⟨S2x800000, .i32⟩ : BufTy).Contents (Elt Ideal))
    (a2 : (⟨S800000, .f32⟩ : BufTy).Contents (Elt Ideal)) (a3 : (⟨S512x128, .f32⟩ : BufTy).Contents (Elt Ideal))
    (a4 : (⟨S128, .f32⟩ : BufTy).Contents (Elt Ideal)) (a5 : (⟨S128x40, .f32⟩ : BufTy).Contents (Elt Ideal))
    (a6 : (⟨S40, .f32⟩ : BufTy).Contents (Elt Ideal)) (r : Fin 50000) (k : Fin 40) :
    shiftedExp a0 a1 a2 a3 a4 a5 a6 (ix2 r k)
      = Ideal.exp (biased a0 a1 a2 a3 a4 a5 a6 (ix2 r k) - rowMax fun k : Fin 40 => biased a0 a1 a2 a3 a4 a5 a6 (ix2 r k)) := by
  show val_main_call3_v6 (F := Ideal) a0 a1 a2 a3 a4 a5 a6 (ix2 r k) = _
  rw [val_main_call3_v6_apply, val_main_call3_v5_apply, shift_apply, Ideal.hostUnary_exp_def, Ideal.subf_def]

/-- The reference's row sum at row r. -/
theorem row_sum_apply (a0 : (⟨S50000x512, .f32⟩ : BufTy).Contents (Elt Ideal)) (a1 : (⟨S2x800000, .i32⟩ : BufTy).Contents (Elt Ideal))
    (a2 : (⟨S800000, .f32⟩ : BufTy).Contents (Elt Ideal)) (a3 : (⟨S512x128, .f32⟩ : BufTy).Contents (Elt Ideal))
    (a4 : (⟨S128, .f32⟩ : BufTy).Contents (Elt Ideal)) (a5 : (⟨S128x40, .f32⟩ : BufTy).Contents (Elt Ideal))
    (a6 : (⟨S40, .f32⟩ : BufTy).Contents (Elt Ideal)) (r : Fin 50000) :
    val_main_call3_v7 (F := Ideal) a0 a1 a2 a3 a4 a5 a6 (ix1 r) = ∑ k : Fin 40, shiftedExp a0 a1 a2 a3 a4 a5 a6 (ix2 r k) :=
  host_row_sum (shiftedExp a0 a1 a2 a3 a4 a5 a6) r

/-- Entry (r, q) of the reference's result is entry q of the log-softmax of row r of the biased array. -/
theorem result_apply (a0 : (⟨S50000x512, .f32⟩ : BufTy).Contents (Elt Ideal)) (a1 : (⟨S2x800000, .i32⟩ : BufTy).Contents (Elt Ideal))
    (a2 : (⟨S800000, .f32⟩ : BufTy).Contents (Elt Ideal)) (a3 : (⟨S512x128, .f32⟩ : BufTy).Contents (Elt Ideal))
    (a4 : (⟨S128, .f32⟩ : BufTy).Contents (Elt Ideal)) (a5 : (⟨S128x40, .f32⟩ : BufTy).Contents (Elt Ideal))
    (a6 : (⟨S40, .f32⟩ : BufTy).Contents (Elt Ideal)) (r : Fin 50000) (q : Fin 40) :
    val_main_v100 (F := Ideal) a0 a1 a2 a3 a4 a5 a6 (ix2 r q)
      = row (fun k : Fin 40 => biased a0 a1 a2 a3 a4 a5 a6 (ix2 r k)) q := by
  rw [val_main_v100_apply, val_main_call3_v10_apply, val_main_call3_v9_apply, val_main_call3_v8_apply,
    val_main_call3_v5_apply, shift_apply]
  have hi : idx_main_call3_v8 (idx_main_call3_v10 (ix2 r q)) = ix1 r := by
    funext c; apply Fin.ext
    fin_cases c <;> rfl
  rw [hi, row_sum_apply, Ideal.hostUnary_log_def, Ideal.subf_def, Ideal.subf_def]
  unfold row
  exact congrArg (fun s => (biased a0 a1 a2 a3 a4 a5 a6 (ix2 r q)
    - rowMax fun k : Fin 40 => biased a0 a1 a2 a3 a4 a5 a6 (ix2 r k)) - Ideal.log s)
    (Finset.sum_congr rfl fun k _ => shifted_exp_apply a0 a1 a2 a3 a4 a5 a6 r k)

end Cert.ReferenceIdeal.LogSoftmax

end
-- ==== Proof.Region3.lean ====
/-
  The last kernel region adds the second bias row to the aggregated class scores and takes the log-softmax of every
  row, 5000 rows at a grid point. Row 5000·t + p of the output is the log-softmax of row 5000·t + p of
  (scores + bias), which is what the reference's last stages compute from its stage %99 = %96 + broadcast bias. So when
  the region's input array is the reference's stage %96, its output array is the reference's result %100.
-/
import proofs.«176960_j29592324669624_1_alg».proof.Proof.Gen.KernelIdeal.Frame
import proofs.«176960_j29592324669624_1_alg».proof.Proof.RefRead
import proofs.«176960_j29592324669624_1_alg».proof.Proof.Region3Body
import proofs.«176960_j29592324669624_1_alg».proof.Proof.RefLogSoftmax
import Idealize.ShloMosaic.Lib.Pipeline.Value
import Idealize.ShloMosaic.Lib.ValueIdx
import Idealize.ShloMosaic.Lib.ValueLayout

set_option maxRecDepth 16384

noncomputable section

namespace Cert.KernelIdeal.LogSoftmaxRegion

open Cert.KernelIdeal Cert.KernelIdeal.Gen Idealize.ShloMosaic Idealize.ShloMosaic.TcCoe Idealize.SL.Sem
open Idealize.ShloMosaic.ValueIdx Cert.LogSoftmaxRow
open Idealize.ShloMosaic.Pipeline (Dat Cfg Window)

theorem origin2 : (![0, 0] : Fin 2 → Nat) = fun _ => 0 := funext fun a => by fin_cases a <;> rfl

/-- The block index maps over the ten grid points: the score block moves with the output block, along the rows; the
    bias window stays at the origin. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- The two input blocks at a grid point, as arrays of extended reals of the blocks' own shapes. -/
abbrev scoreBlock (c : Dev nD) (t : Fin cfg3.N) : Vec Ideal S5000x40 .f32 := iblk3 V c 0 t
abbrev biasBlock (c : Dev nD) (t : Fin cfg3.N) : Vec Ideal S1x40 .f32 := iblk3 V c 1 t

/-- What grid point t writes back is block t of any array G whose row r is the log-softmax of row r of A plus the
    bias vector b, A the array under the region's first window and b, laid out as one row, the array under its second. -/
theorem flushed_core (c : Dev nD) (t : Fin cfg3.N)
    (A : FVec Ideal S50000x40 .f32) (b : FVec Ideal S40 .f32) (G : FVec Ideal S50000x40 .f32)
    (hA : V c main_v94 = A) (hb : V c main_v95 = shapeCast S1x40 b shapeCasts_S40_S1x40)
    (hG : ∀ (r : Fin 50000) (q : Fin 40), G (ix2 r q) = row (fun k : Fin 40 => A (ix2 r k) + b (ix1 k)) q) :
    (dat3 V c).flushed 2 t = ((cfg3.win 2).blk t).view.read (Elt Ideal) G := by
  show (cfg3.win 2).cut (grid3.coords t) ((dat3 V c).after 2 t) = _
  rw [after3_2]
  unfold out3_2
  rw [View.canon_unit_zero origin2]
  simp only [View.ld_unit_zero (S := S5000x40) origin2, View.ld_unit_zero (S := S1x40) origin2]
  obtain ⟨e0, e1, e2, e3, e4, e5⟩ := index_facts t
  funext j
  show k3_pay1 (scoreBlock V c t) (biasBlock V c t) j = G (((cfg3.win 2).blk t).view.emb j)
  have hp : (j 0).val < 5000 := (j 0).isLt
  have hq : (j 1).val < 40 := (j 1).isLt
  have hj : j = ix2 (⟨(j 0).val, hp⟩ : Fin 5000) (⟨(j 1).val, hq⟩ : Fin 40) := eq_ix2 j
  have hr : win3_2.index t (0 : Fin 2) * 5000 + 1 * (j 0).val < 50000 := by
    have h1 := t.isLt
    have h2 : cfg3.N = 10 := rfl
    omega
  have hc : win3_2.index t (1 : Fin 2) * 40 + 1 * (j 1).val < 40 := by omega
  have hi : ((cfg3.win 2).blk t).view.emb j
      = ix2 (⟨win3_2.index t (0 : Fin 2) * 5000 + 1 * (j 0).val, hr⟩ : Fin 50000)
          (⟨win3_2.index t (1 : Fin 2) * 40 + 1 * (j 1).val, hc⟩ : Fin 40) := eq_ix2 _
  refine ((congrArg (k3_pay1 (scoreBlock V c t) (biasBlock V c t)) hj).trans
    (LogSoftmaxBody.payload_apply (scoreBlock V c t) (biasBlock V c t) ⟨(j 0).val, hp⟩ ⟨(j 1).val, hq⟩)).trans ?_
  refine Eq.trans ?_ ((congrArg G hi).trans (hG _ _)).symm
  have hq' : (⟨(j 1).val, hq⟩ : Fin 40) = ⟨win3_2.index t (1 : Fin 2) * 40 + 1 * (j 1).val, hc⟩ := Fin.ext (by
    show (j 1).val = win3_2.index t (1 : Fin 2) * 40 + 1 * (j 1).val
    omega)
  have hz : (fun k : Fin 40 => scoreBlock V c t (ix2 (⟨(j 0).val, hp⟩ : Fin 5000) k) + biasBlock V c t (ix2 (0 : Fin 1) k))
      = fun k : Fin 40 => A (ix2 (⟨win3_2.index t (0 : Fin 2) * 5000 + 1 * (j 0).val, hr⟩ : Fin 50000) k) + b (ix1 k) :=
    funext fun k => by
      have hL : scoreBlock V c t (ix2 (⟨(j 0).val, hp⟩ : Fin 5000) k)
          = A (ix2 (⟨win3_2.index t (0 : Fin 2) * 5000 + 1 * (j 0).val, hr⟩ : Fin 50000) k) := by
        show V c main_v94 (((cfg3.win 0).blk t).view.emb (ix2 (⟨(j 0).val, hp⟩ : Fin 5000) k)) = _
        rw [hA]
        refine congrArg A (funext fun a => Fin.ext ?_)
        match a with
        | ⟨0, _⟩ =>
          show win3_0.index t (0 : Fin 2) * 5000 + 1 * (j 0).val = win3_2.index t (0 : Fin 2) * 5000 + 1 * (j 0).val
          omega
        | ⟨1, _⟩ =>
          show win3_0.index t (1 : Fin 2) * 40 + 1 * k.val = k.val
          omega
      have hR : biasBlock V c t (ix2 (0 : Fin 1) k) = b (ix1 k) := by
        show V c main_v95 (((cfg3.win 1).blk t).view.emb (ix2 (0 : Fin 1) k)) = _
        rw [hb]
        refine shapeCast_apply b shapeCasts_S40_S1x40 _ _ ?_
        rw [Shape.rowMajor_val_two, Shape.rowMajor_val_one]
        show k.val = (win3_1.index t (0 : Fin 2) * 1 + 1 * 0) * 40 + (win3_1.index t (1 : Fin 2) * 40 + 1 * k.val)
        omega
      rw [hL, hR]
  rw [hz, hq']

/-- An index of the array lies in grid point t's block exactly when each coordinate is in the block's range. -/
theorem mem_block (t : Fin cfg3.N) (i : S50000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v96).slice (win3_2.rect t)).set ↔ _
  rw [View.set_slice_whole, Rect.mem_set_unit]
  exact Iff.rfl

/-- Every index of the array is in the block of the grid point its row falls to. -/
theorem covered (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have ht : (i 0).val / 5000 < 10 := by omega
  refine ⟨⟨(i 0).val / 5000, ht⟩, flush3_2 _, ?_⟩
  rw [mem_block]
  obtain ⟨-, -, -, -, e4, e5⟩ := index_facts ⟨(i 0).val / 5000, ht⟩
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 40 ≤ (i 1).val
      ∧ (i 1).val < win3_2.index ⟨(i 0).val / 5000, ht⟩ (1 : Fin 2) * 40 + 40
    rw [e5]; omega

/-- THE REGION'S OUTPUT: when the region finds the reference's stage %96 under its first window and the second bias
    vector, as one row, under its second, the array under its output window ends as the reference's result %100. -/
theorem output_eq (c : Dev nD)
    (a0 : (⟨Cert.ReferenceIdeal.S50000x512, .f32⟩ : BufTy).Contents (Elt Ideal))
    (a1 : (⟨Cert.ReferenceIdeal.S2x800000, .i32⟩ : BufTy).Contents (Elt Ideal))
    (a2 : (⟨Cert.ReferenceIdeal.S800000, .f32⟩ : BufTy).Contents (Elt Ideal))
    (a3 : (⟨Cert.ReferenceIdeal.S512x128, .f32⟩ : BufTy).Contents (Elt Ideal))
    (a4 : (⟨Cert.ReferenceIdeal.S128, .f32⟩ : BufTy).Contents (Elt Ideal))
    (a5 : (⟨Cert.ReferenceIdeal.S128x40, .f32⟩ : BufTy).Contents (Elt Ideal))
    (a6 : (⟨Cert.ReferenceIdeal.S40, .f32⟩ : BufTy).Contents (Elt Ideal))
    (hA : V c main_v94 = Cert.ReferenceIdeal.ReadP.val_main_v96 (F := Ideal) a0 a1 a2 a3 a4 a5)
    (hb : V c main_v95 = shapeCast S1x40 a6 shapeCasts_S40_S1x40) :
    (dat3 V c).arrAt 2 cfg3.N = Cert.ReferenceIdeal.ReadP.val_main_v100 (F := Ideal) a0 a1 a2 a3 a4 a5 a6 :=
  (dat3 V c).arrAt_eq_of_cover 2 _
    (fun t _ => flushed_core V c t (Cert.ReferenceIdeal.LogSoftmax.scores a0 a1 a2 a3 a4 a5)
      (Cert.ReferenceIdeal.LogSoftmax.biasVec a6) _ hA hb
      (fun r q => (Cert.ReferenceIdeal.LogSoftmax.result_apply a0 a1 a2 a3 a4 a5 a6 r q).trans
        (congrArg (fun z => row z q) (funext fun k => Cert.ReferenceIdeal.LogSoftmax.biased_apply a0 a1 a2 a3 a4 a5 a6 r k))))
    covered

end Cert.KernelIdeal.LogSoftmaxRegion

end
-- ==== Proof.LibTypedRef.lean ====
/-
  A general lemma. A typed reference of a host program names a buffer together with the equation between the
  buffer's type and the value's type; contents are carried to the buffer's type and back along that equation.
  Carried there and back they are unchanged, whatever the reference.
-/
import Idealize.ShloMosaic.Lib.StableHlo

namespace Idealize.ShloMosaic.TypedRef

open Idealize.ShloMosaic

/-- Contents carried to a typed reference's buffer and back are the contents. -/
theorem ofBuf_toBuf {sg : RefSig} {T : BufTy} {Val : EltTy → Type} (x : StableHlo.TRef sg T) (v : T.Contents Val) :
    x.ofBuf (x.toBuf v) = v := by
  obtain ⟨r, h, h1, h2⟩ := x
  subst h
  rfl

end Idealize.ShloMosaic.TypedRef
-- ==== Proof.RefValue.lean ====
/-
  The reference's host program, read in five consecutive parts. After the first part the buffers that later parts
  read hold the index vectors (with the self-loops appended) and the first layer's normalised edge weights, all
  functions of the edge array. The second part projects the features, aggregates the projected rows over the edges,
  adds the bias and clamps at zero. The third part builds the second layer's normalised weights from the edge array and
  the edge weights. The fourth part projects again, aggregates and adds the bias; the fifth takes the row-wise log-softmax.
  Each part is evaluated from the contents the part before it leaves, so a value that several later operations read
  is named once, by the stage function of the operation that writes it, and never expanded.
-/
import proofs.«176960_j29592324669624_1_alg».proof.Proof.RefRun
import proofs.«176960_j29592324669624_1_alg».proof.Proof.RefRead
import Idealize.ShloMosaic.Lib.StableHlo.Run
import Idealize.ShloMosaic.Lib.Pipeline.Frame
import proofs.«176960_j29592324669624_1_alg».proof.Proof.LibTypedRef

set_option maxRecDepth 65536

noncomputable section

namespace Cert.ReferenceIdeal.Stages

open Cert.ReferenceIdeal Cert.ReferenceIdeal.Gen Idealize.ShloMosaic Idealize.ShloMosaic.TcCoe Idealize.SL.Sem
open Idealize.ShloMosaic.StableHlo
open Cert.ReferenceIdeal.RunP Cert.ReferenceIdeal.ReadP

variable {F : FTy → Type} [FloatOps F]
variable (V : Valuation τ sig (Elt F))

/-- The buffer contents after the first, the second, the third and the fourth part. -/
def U1 : Valuation τ sig (Elt F) := after opsA V
def U2 : Valuation τ sig (Elt F) := after opsB (U1 V)
def U3 : Valuation τ sig (Elt F) := after opsC (U2 V)
def U4 : Valuation τ sig (Elt F) := after opsD (U3 V)

/-- The whole list from `V` is the fifth part from what the fourth leaves. -/
theorem after_ops : after ops V = after opsE (U4 V) := by
  rw [ops_split, StableHlo.after_append, StableHlo.after_append, StableHlo.after_append, StableHlo.after_append]
  rfl

/-! ## After the first part -/

theorem U1_src : U1 V (Proc.devRef .tc main_v4) = val_main_v4 (F := F) (V (Proc.devRef .tc main_arg1)) := by
  unfold U1; simp only [opsA]; after_results; rfl

theorem U1_dst : U1 V (Proc.devRef .tc main_v7) = val_main_v7 (F := F) (V (Proc.devRef .tc main_arg1)) := by
  unfold U1; simp only [opsA]; after_results; rfl

set_option maxHeartbeats 4000000 in
theorem U1_norm : U1 V (Proc.devRef .tc main_v32) = val_main_v32 (F := F) (V (Proc.devRef .tc main_arg1)) := by
  unfold U1; simp only [opsA]; after_results_simp; rfl

theorem U1_arg0 : U1 V (Proc.devRef .tc main_arg0) = V (Proc.devRef .tc main_arg0) := by
  unfold U1; simp only [opsA]; after_results
theorem U1_arg1 : U1 V (Proc.devRef .tc main_arg1) = V (Proc.devRef .tc main_arg1) := by
  unfold U1; simp only [opsA]; after_results
theorem U1_arg2 : U1 V (Proc.devRef .tc main_arg2) = V (Proc.devRef .tc main_arg2) := by
  unfold U1; simp only [opsA]; after_results
theorem U1_arg3 : U1 V (Proc.devRef .tc main_arg3) = V (Proc.devRef .tc main_arg3) := by
  unfold U1; simp only [opsA]; after_results
theorem U1_arg4 : U1 V (Proc.devRef .tc main_arg4) = V (Proc.devRef .tc main_arg4) := by
  unfold U1; simp only [opsA]; after_results
theorem U1_arg5 : U1 V (Proc.devRef .tc main_arg5) = V (Proc.devRef .tc main_arg5) := by
  unfold U1; simp only [opsA]; after_results
theorem U1_arg6 : U1 V (Proc.devRef .tc main_arg6) = V (Proc.devRef .tc main_arg6) := by
  unfold U1; simp only [opsA]; after_results

/-! ## After the second part -/

set_option maxHeartbeats 4000000 in
/-- The hidden array: the aggregated first projection plus the bias, clamped at zero. -/
theorem U2_hidden :
    U2 V (Proc.devRef .tc main_v50) = val_main_v50 (F := F) (V (Proc.devRef .tc main_arg0)) (V (Proc.devRef .tc main_arg1)) (V (Proc.devRef .tc main_arg3)) (V (Proc.devRef .tc main_arg4)) := by
  unfold U2; simp only [opsB]; after_results_simp
  rw [U1_src, U1_dst, U1_norm, U1_arg0, U1_arg3, U1_arg4]
  rfl

theorem U2_arg0 : U2 V (Proc.devRef .tc main_arg0) = V (Proc.devRef .tc main_arg0) := by
  unfold U2; simp only [opsB]; after_results; exact U1_arg0 V
theorem U2_arg1 : U2 V (Proc.devRef .tc main_arg1) = V (Proc.devRef .tc main_arg1) := by
  unfold U2; simp only [opsB]; after_results; exact U1_arg1 V
theorem U2_arg2 : U2 V (Proc.devRef .tc main_arg2) = V (Proc.devRef .tc main_arg2) := by
  unfold U2; simp only [opsB]; after_results; exact U1_arg2 V
theorem U2_arg3 : U2 V (Proc.devRef .tc main_arg3) = V (Proc.devRef .tc main_arg3) := by
  unfold U2; simp only [opsB]; after_results; exact U1_arg3 V
theorem U2_arg4 : U2 V (Proc.devRef .tc main_arg4) = V (Proc.devRef .tc main_arg4) := by
  unfold U2; simp only [opsB]; after_results; exact U1_arg4 V
theorem U2_arg5 : U2 V (Proc.devRef .tc main_arg5) = V (Proc.devRef .tc main_arg5) := by
  unfold U2; simp only [opsB]; after_results; exact U1_arg5 V
theorem U2_arg6 : U2 V (Proc.devRef .tc main_arg6) = V (Proc.devRef .tc main_arg6) := by
  unfold U2; simp only [opsB]; after_results; exact U1_arg6 V

/-! ## After the third part -/

theorem U3_src : U3 V (Proc.devRef .tc main_v54) = val_main_v54 (F := F) (V (Proc.devRef .tc main_arg1)) := by
  unfold U3; simp only [opsC]; after_results; rw [U2_arg1]; rfl

theorem U3_dst : U3 V (Proc.devRef .tc main_v57) = val_main_v57 (F := F) (V (Proc.devRef .tc main_arg1)) := by
  unfold U3; simp only [opsC]; after_results; rw [U2_arg1]; rfl

set_option maxHeartbeats 4000000 in
/-- The third part, from any contents: the second layer's normalised weights as a function of the edge array and the
    edge weights found there. -/
theorem norm2_of (W : Valuation τ sig (Elt F)) :
    after opsC W (Proc.devRef .tc main_v82)
      = val_main_v82 (F := F) (W (Proc.devRef .tc main_arg1)) (W (Proc.devRef .tc main_arg2)) := by
  simp only [opsC]; after_results_simp; rfl

theorem U3_norm : U3 V (Proc.devRef .tc main_v82) = val_main_v82 (F := F) (V (Proc.devRef .tc main_arg1)) (V (Proc.devRef .tc main_arg2)) := by
  have h := norm2_of (F := F) (U2 V)
  rw [U2_arg1, U2_arg2] at h
  unfold U3
  exact h

theorem U3_hidden : U3 V (Proc.devRef .tc main_v50) = U2 V (Proc.devRef .tc main_v50) := by
  unfold U3; simp only [opsC]; after_results

theorem U3_arg0 : U3 V (Proc.devRef .tc main_arg0) = V (Proc.devRef .tc main_arg0) := by
  unfold U3; simp only [opsC]; after_results; exact U2_arg0 V
theorem U3_arg1 : U3 V (Proc.devRef .tc main_arg1) = V (Proc.devRef .tc main_arg1) := by
  unfold U3; simp only [opsC]; after_results; exact U2_arg1 V
theorem U3_arg2 : U3 V (Proc.devRef .tc main_arg2) = V (Proc.devRef .tc main_arg2) := by
  unfold U3; simp only [opsC]; after_results; exact U2_arg2 V
theorem U3_arg3 : U3 V (Proc.devRef .tc main_arg3) = V (Proc.devRef .tc main_arg3) := by
  unfold U3; simp only [opsC]; after_results; exact U2_arg3 V
theorem U3_arg4 : U3 V (Proc.devRef .tc main_arg4) = V (Proc.devRef .tc main_arg4) := by
  unfold U3; simp only [opsC]; after_results; exact U2_arg4 V
theorem U3_arg5 : U3 V (Proc.devRef .tc main_arg5) = V (Proc.devRef .tc main_arg5) := by
  unfold U3; simp only [opsC]; after_results; exact U2_arg5 V
theorem U3_arg6 : U3 V (Proc.devRef .tc main_arg6) = V (Proc.devRef .tc main_arg6) := by
  unfold U3; simp only [opsC]; after_results; exact U2_arg6 V

/-! ## After the fourth part -/

set_option maxHeartbeats 4000000 in
/-- The biased class scores. -/
theorem U4_scores :
    U4 V (Proc.devRef .tc main_v99)
      = val_main_v99 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  unfold U4; simp only [opsD]; after_results
  rw [U3_hidden, U2_hidden, U3_src, U3_dst, U3_norm, U3_arg5, U3_arg6]
  rfl

theorem U4_arg0 : U4 V (Proc.devRef .tc main_arg0) = V (Proc.devRef .tc main_arg0) := by
  unfold U4; simp only [opsD]; after_results; exact U3_arg0 V
theorem U4_arg1 : U4 V (Proc.devRef .tc main_arg1) = V (Proc.devRef .tc main_arg1) := by
  unfold U4; simp only [opsD]; after_results; exact U3_arg1 V
theorem U4_arg2 : U4 V (Proc.devRef .tc main_arg2) = V (Proc.devRef .tc main_arg2) := by
  unfold U4; simp only [opsD]; after_results; exact U3_arg2 V
theorem U4_arg3 : U4 V (Proc.devRef .tc main_arg3) = V (Proc.devRef .tc main_arg3) := by
  unfold U4; simp only [opsD]; after_results; exact U3_arg3 V
theorem U4_arg4 : U4 V (Proc.devRef .tc main_arg4) = V (Proc.devRef .tc main_arg4) := by
  unfold U4; simp only [opsD]; after_results; exact U3_arg4 V
theorem U4_arg5 : U4 V (Proc.devRef .tc main_arg5) = V (Proc.devRef .tc main_arg5) := by
  unfold U4; simp only [opsD]; after_results; exact U3_arg5 V
theorem U4_arg6 : U4 V (Proc.devRef .tc main_arg6) = V (Proc.devRef .tc main_arg6) := by
  unfold U4; simp only [opsD]; after_results; exact U3_arg6 V

/-! ## After the whole list -/

/-- The biased scores read through their typed reference, and the result written through its own, are unchanged. -/
theorem leaf_scores (Y : (⟨S50000x40, .f32⟩ : BufTy).Contents (Elt F)) :
    (TRef.of (sig := sig) (T := ⟨S50000x40, .f32⟩) main_v99).ofBuf Y = Y := rfl

theorem root_result (Z : (⟨S50000x40, .f32⟩ : BufTy).Contents (Elt F)) :
    (TRef.of (sig := sig) (T := ⟨S50000x40, .f32⟩) main_v100).toBuf Z = Z := rfl

set_option maxHeartbeats 4000000 in
/-- The fifth part, from any contents whose buffer %99 holds the biased scores: it leaves their row-wise
    log-softmax, the last stage function, in the result buffer. Every intermediate of the outlined log-softmax
    function is written through a typed reference and read back through it; those pairs cancel. -/
theorem log_softmax_part (W : Valuation τ sig (Elt F))
    (x0 : (⟨S50000x512, .f32⟩ : BufTy).Contents (Elt F)) (x1 : (⟨S2x800000, .i32⟩ : BufTy).Contents (Elt F))
    (x2 : (⟨S800000, .f32⟩ : BufTy).Contents (Elt F)) (x3 : (⟨S512x128, .f32⟩ : BufTy).Contents (Elt F))
    (x4 : (⟨S128, .f32⟩ : BufTy).Contents (Elt F)) (x5 : (⟨S128x40, .f32⟩ : BufTy).Contents (Elt F))
    (x6 : (⟨S40, .f32⟩ : BufTy).Contents (Elt F))
    (hY : W (Proc.devRef .tc main_v99) = val_main_v99 (F := F) x0 x1 x2 x3 x4 x5 x6) :
    after opsE W (Proc.devRef .tc main_v100) = val_main_v100 (F := F) x0 x1 x2 x3 x4 x5 x6 := by
  simp only [opsE]; after_results_simp
  rw [hY]
  unfold val_main_v100 val_main_call3_v10 val_main_call3_v9 val_main_call3_v8 val_main_call3_v7 val_main_call3_cst_1
    val_main_call3_v6 val_main_call3_v5 val_main_call3_v4 val_main_call3_v3 val_main_call3_v2 val_main_call3_v1
    val_main_call3_cst_0 val_main_call3_v0 val_main_call3_cst
  generalize val_main_v99 (F := F) x0 x1 x2 x3 x4 x5 x6 = Y
  simp only [TypedRef.ofBuf_toBuf, leaf_scores]
  exact root_result _

/-- THE REFERENCE'S RESULT: what the 144 operations leave in the result buffer is the stage function of the last
    operation, applied to the seven argument arrays. -/
theorem result_eq :
    after ops V (Proc.devRef .tc main_v100)
      = val_main_v100 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]
  exact log_softmax_part (U4 V) _ _ _ _ _ _ _ (U4_scores V)

theorem arg0_eq : after ops V (Proc.devRef .tc main_arg0) = V (Proc.devRef .tc main_arg0) := by
  rw [after_ops]; simp only [opsE]; after_results; exact U4_arg0 V
theorem arg1_eq : after ops V (Proc.devRef .tc main_arg1) = V (Proc.devRef .tc main_arg1) := by
  rw [after_ops]; simp only [opsE]; after_results; exact U4_arg1 V
theorem arg2_eq : after ops V (Proc.devRef .tc main_arg2) = V (Proc.devRef .tc main_arg2) := by
  rw [after_ops]; simp only [opsE]; after_results; exact U4_arg2 V
theorem arg3_eq : after ops V (Proc.devRef .tc main_arg3) = V (Proc.devRef .tc main_arg3) := by
  rw [after_ops]; simp only [opsE]; after_results; exact U4_arg3 V
theorem arg4_eq : after ops V (Proc.devRef .tc main_arg4) = V (Proc.devRef .tc main_arg4) := by
  rw [after_ops]; simp only [opsE]; after_results; exact U4_arg4 V
theorem arg5_eq : after ops V (Proc.devRef .tc main_arg5) = V (Proc.devRef .tc main_arg5) := by
  rw [after_ops]; simp only [opsE]; after_results; exact U4_arg5 V
theorem arg6_eq : after ops V (Proc.devRef .tc main_arg6) = V (Proc.devRef .tc main_arg6) := by
  rw [after_ops]; simp only [opsE]; after_results; exact U4_arg6 V

end Cert.ReferenceIdeal.Stages

end
-- ==== Proof.lean ====
/-
  A two-layer graph convolution followed by a row-wise log-softmax, computed two ways.
  Both programs build, from the edge array, the source and destination index vectors with one self-loop per node
  appended, and per layer the symmetric normalisation norm = dinv[src] · w · dinv[dst], dinv = where(deg > 0, rsqrt deg, 0),
  deg the scatter-add of the edge weights over the destinations (unit weights in the first layer, the given weights in
  the second). A layer projects the node rows by a weight matrix, gathers the projected rows at the sources, scales each
  by its edge's norm and scatter-adds them at the destinations, then adds a bias; the first layer is clamped at zero,
  the second goes through log-softmax along the 40 classes.
  The kernel program does the two projections, the bias-and-clamp and the bias-and-log-softmax in four pipelined kernel
  regions over row blocks and everything else by the same host operations as the reference. Over the extended reals a
  block-wise matrix product into a zero accumulator is, entry by entry, the same finite sum as the reference's whole
  product (the narrowing of the first product's operands to a shorter float format is the identity there); max(x + b, 0)
  is the same expression on both sides; and the kernel's shifted log-softmax of a row, (z − M) − log Σ exp (z − M) with M
  the row maximum taken from −∞, is the reference's, whose one extra max with −∞ changes nothing. No step moves a factor
  across a sum, so the finiteness of the inputs is not used.
  The proof names each boundary value of the kernel program by the reference's stage function of the argument arrays:
  the host stretches are evaluated from the contents the segment before them leaves, each kernel region's output array
  is read from its blocks (every row lies in exactly the block of the grid point its row index falls to), and the
  reference's own run is read in four consecutive parts against the same stage functions.
-/
import proofs.«176960_j29592324669624_1_alg».proof.Defs
import proofs.«176960_j29592324669624_1_alg».proof.Proof.Gen.Kernel
import proofs.«176960_j29592324669624_1_alg».proof.Proof.Gen.Kernel.Skeleton
import proofs.«176960_j29592324669624_1_alg».proof.Proof.Gen.Kernel.Launch
import proofs.«176960_j29592324669624_1_alg».proof.Proof.Gen.Kernel.Points
import proofs.«176960_j29592324669624_1_alg».proof.Proof.Gen.Kernel.Frame
import proofs.«176960_j29592324669624_1_alg».proof.Proof.Gen.KernelIdeal
import proofs.«176960_j29592324669624_1_alg».proof.Proof.Gen.KernelIdeal.Skeleton
import proofs.«176960_j29592324669624_1_alg».proof.Proof.Gen.KernelIdeal.Launch
import proofs.«176960_j29592324669624_1_alg».proof.Proof.Gen.KernelIdeal.Points
import proofs.«176960_j29592324669624_1_alg».proof.Proof.Gen.KernelIdeal.Frame
import proofs.«176960_j29592324669624_1_alg».proof.Proof.Gen.ReferenceIdeal
import proofs.«176960_j29592324669624_1_alg».proof.Proof.Gen.Pre_finite_inputs
import proofs.«176960_j29592324669624_1_alg».proof.Proof.KernelRun
import proofs.«176960_j29592324669624_1_alg».proof.Proof.StageD
import proofs.«176960_j29592324669624_1_alg».proof.Proof.Region0
import proofs.«176960_j29592324669624_1_alg».proof.Proof.Region1
import proofs.«176960_j29592324669624_1_alg».proof.Proof.Region2
import proofs.«176960_j29592324669624_1_alg».proof.Proof.Region3
import proofs.«176960_j29592324669624_1_alg».proof.Proof.RefRun
import proofs.«176960_j29592324669624_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- THE KERNEL PROGRAM'S RESULT: the contents of the result buffer at the last segment boundary are the reference's
    last stage function of the seven argument arrays as launched. Region by region: the first product is the
    reference's %33, so the aggregation after it is %46 and the clamped biased array %50; the second product is then %83,
    the aggregation after it %96, and the log-softmax of the biased scores the result %100. -/
theorem kernel_result (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) :
    Cert.KernelIdeal.Gen.W12 m ρ c (Proc.devRef .tc Cert.KernelIdeal.main_v96)
      = Cert.ReferenceIdeal.ReadP.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  have h33 : Cert.KernelIdeal.Gen.W4 m ρ c (Proc.devRef .tc Cert.KernelIdeal.main_v33)
      = Cert.ReferenceIdeal.ReadP.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) :=
    (Cert.KernelIdeal.Gen.W4_arr m ρ c 2).trans (Cert.KernelIdeal.Project1.output_eq (Cert.KernelIdeal.Gen.V3 m ρ) c _ _
      (Cert.KernelIdeal.Stages.W3_arg0 m ρ c) (Cert.KernelIdeal.Stages.W3_arg3 m ρ c))
  have h46 := Cert.KernelIdeal.Stages.W5_aggregate m ρ c _ _ h33
  have h48 : Cert.KernelIdeal.Gen.W6 m ρ c (Proc.devRef .tc Cert.KernelIdeal.main_v48)
      = Cert.ReferenceIdeal.ReadP.val_main_v50 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) :=
    (Cert.KernelIdeal.Gen.W6_arr m ρ c 2).trans (Cert.KernelIdeal.BiasRelu.output_eq (Cert.KernelIdeal.Gen.V5 m ρ) c _ _ _ _ h46
      (Cert.KernelIdeal.Stages.W5_bias m ρ c))
  have h48' := (Cert.KernelIdeal.Stages.W9_hidden m ρ c).trans h48
  have h81 : Cert.KernelIdeal.Gen.W10 m ρ c (Proc.devRef .tc Cert.KernelIdeal.main_v81)
      = Cert.ReferenceIdeal.ReadP.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    (Cert.KernelIdeal.Gen.W10_arr m ρ c 2).trans (Cert.KernelIdeal.Project2.output_eq (Cert.KernelIdeal.Gen.V9 m ρ) c _ _ _ _ _ h48'
      (Cert.KernelIdeal.Stages.W9_arg5 m ρ c))
  have h94 := Cert.KernelIdeal.Stages.W11_aggregate m ρ c _ _ _ _ h81
  exact (Cert.KernelIdeal.Gen.W12_arr m ρ c 2).trans (Cert.KernelIdeal.LogSoftmaxRegion.output_eq (Cert.KernelIdeal.Gen.V11 m ρ) c _ _ _ _ _ _ _ h94
    (Cert.KernelIdeal.Stages.W11_bias m ρ c))

theorem frame_p : Cert.frame_Kernel := fun m ρ _ => Cert.Kernel.Gen.frame m ρ

theorem frame_pi : Cert.frame_KernelIdeal := fun m ρ _ => Cert.KernelIdeal.Gen.frame m ρ

/-- The reference is a host program: it runs to the end and writes no argument array. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Stages.arg0_eq _), (h c Cert.ReferenceIdeal.main_arg1).trans (Cert.ReferenceIdeal.Stages.arg1_eq _),
     (h c Cert.ReferenceIdeal.main_arg2).trans (Cert.ReferenceIdeal.Stages.arg2_eq _), (h c Cert.ReferenceIdeal.main_arg3).trans (Cert.ReferenceIdeal.Stages.arg3_eq _),
     (h c Cert.ReferenceIdeal.main_arg4).trans (Cert.ReferenceIdeal.Stages.arg4_eq _), (h c Cert.ReferenceIdeal.main_arg5).trans (Cert.ReferenceIdeal.Stages.arg5_eq _),
     (h c Cert.ReferenceIdeal.main_arg6).trans (Cert.ReferenceIdeal.Stages.arg6_eq _)⟩)
    (Cert.ReferenceIdeal.RunP.run_after (F := Ideal) m ρ)

/-- The ideal pass rewrote no operation of the kernel program. -/
theorem preserves : Cert.preserves_Kernel_KernelIdeal := trivial

/-- From memories that agree on the seven arguments both programs end with the same result array: the reference's
    last stage function of those arguments. -/
theorem algebraic : Cert.algebraic_KernelIdeal_ReferenceIdeal := by
  intro m ρ m' ρ' _ hagree
  refine ⟨fun c => Cert.KernelIdeal.Gen.W12 m ρ c (Proc.devRef .tc Cert.KernelIdeal.main_v96), Cert.KernelIdeal.ResultRun.run_result m ρ, ?_⟩
  refine (θ_run Cert.ReferenceIdeal.defs _ _).mono (fun _ h c => ⟨?_,
     (h c Cert.ReferenceIdeal.main_arg0).trans (Cert.ReferenceIdeal.Stages.arg0_eq _), (h c Cert.ReferenceIdeal.main_arg1).trans (Cert.ReferenceIdeal.Stages.arg1_eq _),
     (h c Cert.ReferenceIdeal.main_arg2).trans (Cert.ReferenceIdeal.Stages.arg2_eq _), (h c Cert.ReferenceIdeal.main_arg3).trans (Cert.ReferenceIdeal.Stages.arg3_eq _),
     (h c Cert.ReferenceIdeal.main_arg4).trans (Cert.ReferenceIdeal.Stages.arg4_eq _), (h c Cert.ReferenceIdeal.main_arg5).trans (Cert.ReferenceIdeal.Stages.arg5_eq _),
     (h c Cert.ReferenceIdeal.main_arg6).trans (Cert.ReferenceIdeal.Stages.arg6_eq _)⟩)
    (Cert.ReferenceIdeal.RunP.run_after (F := Ideal) m' ρ')
  refine (h c Cert.ReferenceIdeal.main_v100).trans ((Cert.ReferenceIdeal.Stages.result_eq _).trans ?_)
  obtain ⟨g0, g1, g2, g3, g4, g5, g6⟩ := hagree c
  show Cert.ReferenceIdeal.ReadP.val_main_v100 (F := Ideal)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) = _
  rw [g0, g1, g2, g3, g4, g5, g6]
  exact (kernel_result m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
